-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x3 : Shape := ⟨3, ![4, 8192, 3]⟩
abbrev S_ : Shape := ⟨0, ![]⟩

class Facts : Prop where
  bcast_S_S4x8192x3 : S_.BroadcastsInDim S4x8192x3 (![] : Fin 0 → Fin S4x8192x3.rank)
  reducesTo_S4x8192x3_S_d0_1_2 : S4x8192x3.ReducesTo [0, 1, 2] S_
  h_S_ : 0 < S_.numel

variable [Facts]

def fn {F : FTy → Type} [FloatOps F] (main_arg0 : FVec F S4x8192x3 .f32) (main_arg1 : FVec F S4x8192x3 .f32) : IVec S_ 1 :=
  let main_v0 : FVec F S4x8192x3 .f32 := Host.absf main_arg0
  let main_cst : FVec F S_ .f32 := constant S_ .f32 0x7F800000#32
  let main_v1 : FVec F S4x8192x3 .f32 := broadcastInDim S4x8192x3 ![] bcast_S_S4x8192x3 main_cst
  let main_v2 : IVec S4x8192x3 1 := cmpf .olt main_v0 main_v1
  let main_c : IVec S_ 1 := constantI S_ 1 1#1
  let main_v3 : IVec S_ 1 := (fun x v => Host.reduce IntOp.andi x v reducesTo_S4x8192x3_S_d0_1_2 h_S_) main_v2 main_c
  let main_v4 : FVec F S4x8192x3 .f32 := Host.absf main_arg1
  let main_cst_0 : FVec F S_ .f32 := constant S_ .f32 0x7F800000#32
  let main_v5 : FVec F S4x8192x3 .f32 := broadcastInDim S4x8192x3 ![] bcast_S_S4x8192x3 main_cst_0
  let main_v6 : IVec S4x8192x3 1 := cmpf .olt main_v4 main_v5
  let main_c_1 : IVec S_ 1 := constantI S_ 1 1#1
  let main_v7 : IVec S_ 1 := (fun x v => Host.reduce IntOp.andi x v reducesTo_S4x8192x3_S_d0_1_2 h_S_) main_v6 main_c_1
  let main_v8 : IVec S_ 1 := andi main_v3 main_v7
  main_v8
-- ==== Kernel.lean ====
abbrev S4x8192x3 : Shape := ⟨3, ![4, 8192, 3]⟩
abbrev S4x8192 : Shape := ⟨2, ![4, 8192]⟩
abbrev S4x512x3 : Shape := ⟨3, ![4, 512, 3]⟩
abbrev S4x512 : Shape := ⟨2, ![4, 512]⟩
abbrev S4x512x1 : Shape := ⟨3, ![4, 512, 1]⟩
abbrev S4x1x512 : Shape := ⟨3, ![4, 1, 512]⟩
abbrev S4x512x512 : Shape := ⟨3, ![4, 512, 512]⟩
abbrev S_ : Shape := ⟨0, ![]⟩
abbrev S4 : Shape := ⟨1, ![4]⟩

abbrev nBuf : Space → Nat
  | .hbm => 15
  | .vmem => 14
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x8192, .f32⟩
  | .hbm, ⟨3, _⟩ => ⟨S4x8192, .f32⟩
  | .hbm, ⟨4, _⟩ => ⟨S_, .f32⟩
  | .hbm, ⟨5, _⟩ => ⟨S4, .f32⟩
  | .hbm, ⟨6, _⟩ => ⟨S_, .f32⟩
  | .hbm, ⟨7, _⟩ => ⟨S4, .f32⟩
  | .hbm, ⟨8, _⟩ => ⟨S4, .f32⟩
  | .hbm, ⟨9, _⟩ => ⟨S_, .f32⟩
  | .hbm, ⟨10, _⟩ => ⟨S4, .f32⟩
  | .hbm, ⟨11, _⟩ => ⟨S_, .f32⟩
  | .hbm, ⟨12, _⟩ => ⟨S4, .f32⟩
  | .hbm, ⟨13, _⟩ => ⟨S4, .f32⟩
  | .hbm, ⟨14, _⟩ => ⟨S4, .f32⟩
  | .local _ .vmem, ⟨0, _⟩ => ⟨S4x512x3, .f32⟩
  | .local _ .vmem, ⟨1, _⟩ => ⟨S4x512x3, .f32⟩
  | .local _ .vmem, ⟨2, _⟩ => ⟨S4x512x3, .f32⟩
  | .local _ .vmem, ⟨3, _⟩ => ⟨S4x512x3, .f32⟩
  | .local _ .vmem, ⟨4, _⟩ => ⟨S4x512, .f32⟩
  | .local _ .vmem, ⟨5, _⟩ => ⟨S4x512, .f32⟩
  | .local _ .vmem, ⟨6, _⟩ => ⟨S4x512, .f32⟩
  | .local _ .vmem, ⟨7, _⟩ => ⟨S4x512x3, .f32⟩
  | .local _ .vmem, ⟨8, _⟩ => ⟨S4x512x3, .f32⟩
  | .local _ .vmem, ⟨9, _⟩ => ⟨S4x512x3, .f32⟩
  | .local _ .vmem, ⟨10, _⟩ => ⟨S4x512x3, .f32⟩
  | .local _ .vmem, ⟨11, _⟩ => ⟨S4x512, .f32⟩
  | .local _ .vmem, ⟨12, _⟩ => ⟨S4x512, .f32⟩
  | .local _ .vmem, ⟨13, _⟩ => ⟨S4x512, .f32⟩
  | _, _ => ⟨S4x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![16, 16], ![false, false]⟩

def k0_cond2 (i : grid0.Coords) : BitVec 1 :=
  let arg1 : BitVec 32 := BitVec.ofNat 32 (i 1).val
  let c15_i32 : BitVec 32 := 15#32
  let v58 : BitVec 1 := Scalar.cmpi .eq arg1 c15_i32
  let v59 : BitVec 32 := Scalar.extui v58
  let c0_i32_11 : BitVec 32 := 0#32
  let v60 : BitVec 1 := Scalar.cmpi .ne v59 c0_i32_11
  v60

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S4x512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4x512x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![16, 16], ![false, false]⟩

def k1_cond2 (i : grid1.Coords) : BitVec 1 :=
  let arg1 : BitVec 32 := BitVec.ofNat 32 (i 1).val
  let c15_i32 : BitVec 32 := 15#32
  let v58 : BitVec 1 := Scalar.cmpi .eq arg1 c15_i32
  let v59 : BitVec 32 := Scalar.extui v58
  let c0_i32_11 : BitVec 32 := 0#32
  let v60 : BitVec 1 := Scalar.cmpi .ne v59 c0_i32_11
  v60

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S4x512x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S4x512x3 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S4x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  inb_S4x512_S4x512_0_0 : ∀ a, (![0, 0] : Fin 2 → Nat) a + S4x512.size a ≤ S4x512.size a
  h_S4x512 : 0 < S4x512.numel
  shapeCasts_S4x512_S4x512 : S4x512.ShapeCasts S4x512
  inb_S4x512x3_S4x512x3_0_0_0 : ∀ a, (![0, 0, 0] : Fin 3 → Nat) a + S4x512x3.size a ≤ S4x512x3.size a
  h_S4x512x3 : 0 < S4x512x3.numel
  slices_S4x512x3_o0_0_0_S4x512x1 : S4x512x3.Slices ![0, 0, 0] S4x512x1
  shapeCasts_S4x512x1_S4x512 : S4x512x1.ShapeCasts S4x512
  slices_S4x512x3_o0_0_1_S4x512x1 : S4x512x3.Slices ![0, 0, 1] S4x512x1
  slices_S4x512x3_o0_0_2_S4x512x1 : S4x512x3.Slices ![0, 0, 2] S4x512x1
  shapeCasts_S4x512_S4x512x1 : S4x512.ShapeCasts S4x512x1
  shapeCasts_S4x512_S4x1x512 : S4x512.ShapeCasts S4x1x512
  broadcasts_S4x512x1_S4x512x512 : S4x512x1.Broadcasts S4x512x512
  broadcasts_S4x1x512_S4x512x512 : S4x1x512.Broadcasts S4x512x512
  reduces_S4x512x512_S4x512 : S4x512x512.Reduces [2] S4x512
  reduces_S4x512x512_S4x512_2 : S4x512x512.Reduces [1] S4x512
  reducesTo_S4x8192_S4_d1 : S4x8192.ReducesTo [1] S4
  h_S_ : 0 < S_.numel
  bcast_S_S4 : S_.BroadcastsInDim S4 (![] : Fin 0 → Fin S4.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x512x3.size a ≤ S4x8192x3.size a
  hwx0_0 : ∀ i : grid0.Coords, EltTy.bits .f32 = 32 ∨ (Rect.block (s := S4x8192x3) S4x512x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x512x3.size a ≤ S4x8192x3.size a
  hwx0_1 : ∀ i : grid0.Coords, EltTy.bits .f32 = 32 ∨ (Rect.block (s := S4x8192x3) S4x512x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x512.size a ≤ S4x8192.size a
  hwx0_2 : ∀ i : grid0.Coords, EltTy.bits .f32 = 32 ∨ (Rect.block (s := S4x8192) S4x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4x512x3.size a ≤ S4x8192x3.size a
  hwx1_0 : ∀ i : grid1.Coords, EltTy.bits .f32 = 32 ∨ (Rect.block (s := S4x8192x3) S4x512x3.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4x512x3.size a ≤ S4x8192x3.size a
  hwx1_1 : ∀ i : grid1.Coords, EltTy.bits .f32 = 32 ∨ (Rect.block (s := S4x8192x3) S4x512x3.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4x512.size a ≤ S4x8192.size a
  hwx1_2 : ∀ i : grid1.Coords, EltTy.bits .f32 = 32 ∨ (Rect.block (s := S4x8192) S4x512.size (cc1_transform_2 i) (hinb1_2 i)).WholeWords (EltTy.packing .f32)

variable [Facts₀]

abbrev win0_0 : Pipeline.Window sig grid0 :=
  Pipeline.Window.ofSpec (Memref.whole main_arg0) S4x512x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x512x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg0) S4x512x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S4x512x3.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S4x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S4x8192x3 : Shape := ⟨3, ![4, 8192, 3]⟩
abbrev S_ : Shape := ⟨0, ![]⟩
abbrev S4x8192 : Shape := ⟨2, ![4, 8192]⟩
abbrev S4x8192x8192 : Shape := ⟨3, ![4, 8192, 8192]⟩
abbrev S4x8192x1 : Shape := ⟨3, ![4, 8192, 1]⟩
abbrev S4x1x8192 : Shape := ⟨3, ![4, 1, 8192]⟩
abbrev S4 : Shape := ⟨1, ![4]⟩

abbrev nBuf : Space → Nat
  | .hbm => 33
  | .vmem => 0
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x8192x3, .f32⟩
  | .hbm, ⟨3, _⟩ => ⟨S_, .f32⟩
  | .hbm, ⟨4, _⟩ => ⟨S4x8192, .f32⟩
  | .hbm, ⟨5, _⟩ => ⟨S4x8192x3, .f32⟩
  | .hbm, ⟨6, _⟩ => ⟨S_, .f32⟩
  | .hbm, ⟨7, _⟩ => ⟨S4x8192, .f32⟩
  | .hbm, ⟨8, _⟩ => ⟨S4x8192x8192, .f32⟩
  | .hbm, ⟨9, _⟩ => ⟨S4x8192x1, .f32⟩
  | .hbm, ⟨10, _⟩ => ⟨S4x1x8192, .f32⟩
  | .hbm, ⟨11, _⟩ => ⟨S4x8192x8192, .f32⟩
  | .hbm, ⟨12, _⟩ => ⟨S4x8192x8192, .f32⟩
  | .hbm, ⟨13, _⟩ => ⟨S4x8192x8192, .f32⟩
  | .hbm, ⟨14, _⟩ => ⟨S_, .f32⟩
  | .hbm, ⟨15, _⟩ => ⟨S4x8192x8192, .f32⟩
  | .hbm, ⟨16, _⟩ => ⟨S4x8192x8192, .f32⟩
  | .hbm, ⟨17, _⟩ => ⟨S4x8192x8192, .f32⟩
  | .hbm, ⟨18, _⟩ => ⟨S_, .f32⟩
  | .hbm, ⟨19, _⟩ => ⟨S4x8192, .f32⟩
  | .hbm, ⟨20, _⟩ => ⟨S_, .f32⟩
  | .hbm, ⟨21, _⟩ => ⟨S4x8192, .f32⟩
  | .hbm, ⟨22, _⟩ => ⟨S_, .f32⟩
  | .hbm, ⟨23, _⟩ => ⟨S4, .f32⟩
  | .hbm, ⟨24, _⟩ => ⟨S_, .f32⟩
  | .hbm, ⟨25, _⟩ => ⟨S4, .f32⟩
  | .hbm, ⟨26, _⟩ => ⟨S4, .f32⟩
  | .hbm, ⟨27, _⟩ => ⟨S_, .f32⟩
  | .hbm, ⟨28, _⟩ => ⟨S4, .f32⟩
  | .hbm, ⟨29, _⟩ => ⟨S_, .f32⟩
  | .hbm, ⟨30, _⟩ => ⟨S4, .f32⟩
  | .hbm, ⟨31, _⟩ => ⟨S4, .f32⟩
  | .hbm, ⟨32, _⟩ => ⟨S4, .f32⟩
  | _, _ => ⟨S4x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_cst_5 : Ref sig .tc := ⟨.hbm, 24, rfl⟩
abbrev main_v16 : Ref sig .tc := ⟨.hbm, 25, rfl⟩
abbrev main_v17 : Ref sig .tc := ⟨.hbm, 26, rfl⟩
abbrev main_cst_6 : Ref sig .tc := ⟨.hbm, 27, rfl⟩
abbrev main_v18 : Ref sig .tc := ⟨.hbm, 28, rfl⟩
abbrev main_cst_7 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩

abbrev nD : Nat := 1
abbrev τ : Topo := Topo.v7x

variable {F : FTy → Type} [FloatOps F]

class Facts₀ : Prop where
  reducesTo_S4x8192x3_S4x8192_d2 : S4x8192x3.ReducesTo [2] S4x8192
  h_S_ : 0 < S_.numel
  bcast_S4x8192_S4x8192x1_0_1 : S4x8192.BroadcastsInDim S4x8192x1 (![0, 1] : Fin 2 → Fin S4x8192x1.rank)
  bcast_S4x8192_S4x1x8192_0_2 : S4x8192.BroadcastsInDim S4x1x8192 (![0, 2] : Fin 2 → Fin S4x1x8192.rank)
  bcast_S4x8192x1_S4x8192x8192_0_1_2 : S4x8192x1.BroadcastsInDim S4x8192x8192 (![0, 1, 2] : Fin 3 → Fin S4x8192x8192.rank)
  bcast_S4x1x8192_S4x8192x8192_0_1_2 : S4x1x8192.BroadcastsInDim S4x8192x8192 (![0, 1, 2] : Fin 3 → Fin S4x8192x8192.rank)
  bcast_S_S4x8192x8192 : S_.BroadcastsInDim S4x8192x8192 (![] : Fin 0 → Fin S4x8192x8192.rank)
  reducesTo_S4x8192x8192_S4x8192_d2 : S4x8192x8192.ReducesTo [2] S4x8192
  reducesTo_S4x8192x8192_S4x8192_d1 : S4x8192x8192.ReducesTo [1] S4x8192
  reducesTo_S4x8192_S4_d1 : S4x8192.ReducesTo [1] S4
  bcast_S_S4 : S_.BroadcastsInDim S4 (![] : Fin 0 → Fin S4.rank)
  dot_S4x8192x3_S4x8192x3_S4x8192x8192_2_2_1_1_0_0_wf : DotDims.WF S4x8192x3 S4x8192x3 S4x8192x8192 [2] [2] [1] [1] [0] [0]

variable [Facts₀]

def dot_S4x8192x3_S4x8192x3_S4x8192x8192_2_2_1_1_0_0 : DotDims S4x8192x3 S4x8192x3 S4x8192x8192 where
  lhsContracting := [2]
  rhsContracting := [2]
  lhsNonContracting := [1]
  rhsNonContracting := [1]
  lhsBatch := [0]
  rhsBatch := [0]
  wf := dot_S4x8192x3_S4x8192x3_S4x8192x8192_2_2_1_1_0_0_wf

class Facts : Prop extends Facts₀ where

variable [Facts]
-- ==== Proof.K.Runs0.lean ====
/- Region 0 (the pass that takes, for every point of the first cloud, the least squared distance to the second cloud):
   what its three control cases share. The grid point is (i, j): i picks the block of 512 points the result is for,
   j the block of 512 points of the other cloud the minimum runs over; the body resets its running minimum when j = 0,
   lowers it by the block's row minima at every j, and copies it out when j = 15. Here: the two conditions in closed form
   over the 256 points, where the output window is idle and where it is written back, the names of the staging
   and scratch memrefs, and the region invariant with the scratch split off. -/
import proofs.«116237_j481036337470_1_alg».proof.Proof.Gen.Kernel.Launch
import proofs.«116237_j481036337470_1_alg».proof.Proof.Gen.Kernel.Skeleton
import proofs.«116237_j481036337470_1_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the buffers' contents when the region is entered: a parameter, fixed by the launch
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's two conditions -/

/-- "j = 0", as the body computes it: the running minimum is reset. -/
abbrev cond0_0 (i : grid0.Coords) : Prop := (Scalar.cmpi .ne (Scalar.extui (Scalar.cmpi .eq (BitVec.ofNat 32 (i 1).val) 0#32)) 0#32) = 1#1
/-- It holds at the points ≡ 0 (mod 16). -/
theorem hcond0_0 : ∀ t : Fin cfg0.N, cond0_0 (grid0.coords t) ↔ t.val % 16 = 0 :=
  (by decide +kernel : ∀ t : Fin grid0.N, cond0_0 (grid0.coords t) ↔ t.val % 16 = 0)

/-- "j = 15", as the body computes it: the running minimum is copied out. -/
abbrev cond0_1 (i : grid0.Coords) : Prop := k0_cond2 i = 1#1
/-- It holds at the points ≡ 15 (mod 16). -/
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Where j = 0 the output window is idle and not written back. -/
theorem idleAt0_2_A : ∀ t : Fin cfg0.N, cond0_0 (grid0.coords t) → ¬cond0_1 (grid0.coords t) → cfg0.idle 2 (grid0.coords t) = true := by decide +kernel
theorem noFlush0_2_A : ∀ t : Fin cfg0.N, cond0_0 (grid0.coords t) → ¬cond0_1 (grid0.coords t) → (cfg0.win 2).flush t = false := by decide +kernel
/-- Where 0 < j < 15 likewise. -/
theorem idleAt0_2_B : ∀ t : Fin cfg0.N, ¬cond0_0 (grid0.coords t) → ¬cond0_1 (grid0.coords t) → cfg0.idle 2 (grid0.coords t) = true := by decide +kernel
theorem noFlush0_2_B : ∀ t : Fin cfg0.N, ¬cond0_0 (grid0.coords t) → ¬cond0_1 (grid0.coords t) → (cfg0.win 2).flush t = false := by decide +kernel
/-- Where j = 15 the body stores into it. -/
theorem liveAt0_2_C : ∀ t : Fin cfg0.N, ¬cond0_0 (grid0.coords t) → cond0_1 (grid0.coords t) → cfg0.idle 2 (grid0.coords t) = false := by decide +kernel

/-! ## The memrefs the body is called with -/

/-- One staging buffer of the output window, through which its contents are stated. -/
abbrev VO0_2 : View sig .tc .vmem S4x512 .f32 := (Memref.whole cc0_stg2_0 : Memref sig .tc .vmem S4x512 .f32).view
abbrev ms0_0 (t : Fin cfg0.N) : Memref sig .tc .vmem S4x512x3 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4x512x3 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4x512 .f32 := win0_2.stage (cfg0.slots t 2)
abbrev hs0_2 (t : Fin cfg0.N) : (ms0_2 t).IsWhole := hstage0_2 ((cfg0.slots t 2).cast nbuf0_2)
/-- The running minimum's buffer. -/
abbrev scM0_0 : Memref sig .tc .vmem S4x512 .f32 := Memref.whole cc0_scratch0
abbrev VS0_0 : View sig .tc .vmem S4x512 .f32 := scM0_0.view

/-! ## The invariant, the running minimum split off -/

/-- The scoped buffers of the other pass, each whole at some contents: carried unopened. -/
def restS0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- The class's invariant with the running minimum's buffer as a memref owned at some contents. -/
theorem scopedS0_eq (c : Dev nD) :
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f) ∗ restS0 c) := by
  unfold restS0
  exact Pipeline.scopedRest_eq_of_list spec0 c [cc0_scratch0, cc1_stg0_0, cc1_stg0_1, cc1_stg1_0, cc1_stg1_1, cc1_stg2_0, cc1_stg2_1, cc1_scratch0] (by decide) (by decide)

theorem PhiA0_eq (c : Dev nD) :
    (Pipeline.ΦA spec0 c : sProp 𝕄)
      = iprop(((∃ d, owns (c : Thread nD τ) scM0_0 fullShare d) ∗ restS0 c) ∗ (∃ r, prngReg c r)) := by
  unfold Pipeline.ΦA; rw [scopedS0_eq]; simp only [scM0_0, owns_whole]; rfl

end Cert.Kernel.Fr

end
-- ==== Proof.K.Run0A.lean ====
/- Region 0, the case j = 0: the running minimum is reset to +∞ and then lowered by the block's row minima; the output
   window is left as it was. The body's run on whole memrefs; the pieces the scratch ends with are what the run finds. -/
import proofs.«116237_j481036337470_1_alg».proof.Proof.K.Runs0

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body where j = 0, on whole memrefs: the inputs at their contents, the output at contents handed back untouched,
    the scratch at anything; it ends with the scratch's pieces written. -/
noncomputable def kernelRun0_A (c : Dev nD) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : cond0_0 i) (hc1 : ¬cond0_1 i)
    (x0 x1 : Vec F S4x512x3 .f32) :
    Σ' (L2 : List (View.Piece (Elt F) S4x512 .f32)), { LS0 : List (View.Piece (Elt F) S4x512 .f32) //
      ∀ (xi2 : Vec F S4x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__a2b_kernel i arg2 harg2 arg3 harg3 arg4 harg4 arg5 harg5) K } := by
  refine ⟨[], ?_, fun xi2 E K => ?run⟩
  case run =>
    simp only [cc0__a2b_kernel_eq_skeleton]; unfold cc0__a2b_kernel_skel
    simp only [k0_part1_eq_skeleton]
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Fr

end
-- ==== Proof.K.Run0B.lean ====
/- Region 0, the case 0 < j < 15: the running minimum the point before left is lowered by the block's row minima; the
   output window is left as it was. -/
import proofs.«116237_j481036337470_1_alg».proof.Proof.K.Run0A

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body where 0 < j < 15, on whole memrefs: the scratch at what the point before left (`xs0`). -/
noncomputable def kernelRun0_B (c : Dev nD) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : ¬cond0_0 i) (hc1 : ¬cond0_1 i)
    (x0 x1 : Vec F S4x512x3 .f32) (xs0 : Vec F S4x512 .f32) :
    Σ' (L2 : List (View.Piece (Elt F) S4x512 .f32)), { LS0 : List (View.Piece (Elt F) S4x512 .f32) //
      ∀ (xi2 : Vec F S4x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__a2b_kernel i arg2 harg2 arg3 harg3 arg4 harg4 arg5 harg5) K } := by
  refine ⟨[], ?_, fun xi2 E K => ?run⟩
  case run =>
    simp only [cc0__a2b_kernel_eq_skeleton]; unfold cc0__a2b_kernel_skel
    simp only [k0_part1_eq_skeleton]
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Fr

end
-- ==== Proof.K.Run0C.lean ====
/- Region 0, the case j = 15: the running minimum the point before left is lowered by the last block's row minima and
   then copied into the output window. -/
import proofs.«116237_j481036337470_1_alg».proof.Proof.K.Run0B

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body where j = 15, on whole memrefs: the scratch at what the point before left (`xs0`), the output at anything;
    both end with their pieces written. -/
noncomputable def kernelRun0_C (c : Dev nD) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : ¬cond0_0 i) (hc1 : cond0_1 i)
    (x0 x1 : Vec F S4x512x3 .f32) (xs0 : Vec F S4x512 .f32) :
    Σ' (L2 : List (View.Piece (Elt F) S4x512 .f32)), { LS0 : List (View.Piece (Elt F) S4x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__a2b_kernel i arg2 harg2 arg3 harg3 arg4 harg4 arg5 harg5) K } := by
  refine ⟨?_, ?_, fun E K => ?run⟩
  case run =>
    simp only [cc0__a2b_kernel_eq_skeleton]; unfold cc0__a2b_kernel_skel
    simp only [k0_part1_eq_skeleton]
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Fr

end
-- ==== Proof.K.Frame0.lean ====
/- Region 0: what the running minimum and the output window hold after each grid point, the region invariant that carries
   the running minimum from one point to the next, the proof data, and the body obligation at every point. After the point
   (i, j) the scratch holds what the case's run left: at j = 0 the reset value lowered by block 0's row minima, at j > 0
   what the point before left lowered by block j's; the output window is stored into only at j = 15. -/
import proofs.«116237_j481036337470_1_alg».proof.Proof.K.Run0C

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- Where j = 0 nothing is stored into the output window: a placeholder nothing consults. -/
def out0_A_2 (c : Dev nD) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : cond0_0 i) (hc1 : ¬cond0_1 i) (x0 x1 : Vec F S4x512x3 .f32) : Vec F S4x512 .f32 :=
  VO0_2.read (Elt F) (VO0_2.writes (Elt F) VO0_2.junk (kernelRun0_A c i arg2 harg2 arg3 harg3 arg4 harg4 arg5 harg5 hc0 hc1 x0 x1).1)

/-- The scratch's pieces where j = 0 cover it. -/
theorem scover0_A_0 (c : Dev nD) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : cond0_0 i) (hc1 : ¬cond0_1 i) (x0 x1 : Vec F S4x512x3 .f32) (y : S4x512.Idx) :
    ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S4x512.size (by sl_kernel_rfl) y

/-- What the point leaves in the scratch where j = 0. -/
def sout0_A_0 (c : Dev nD) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : cond0_0 i) (hc1 : ¬cond0_1 i) (x0 x1 : Vec F S4x512x3 .f32) : Vec F S4x512 .f32 :=
  VS0_0.read (Elt F) (VS0_0.writes (Elt F) VS0_0.junk (kernelRun0_A c i arg2 harg2 arg3 harg3 arg4 harg4 arg5 harg5 hc0 hc1 x0 x1).2.1)

def out0_B_2 (c : Dev nD) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : ¬cond0_0 i) (hc1 : ¬cond0_1 i) (x0 x1 : Vec F S4x512x3 .f32) (xs0 : Vec F S4x512 .f32) : Vec F S4x512 .f32 :=
  VO0_2.read (Elt F) (VO0_2.writes (Elt F) VO0_2.junk (kernelRun0_B c i arg2 harg2 arg3 harg3 arg4 harg4 arg5 harg5 hc0 hc1 x0 x1 xs0).1)

theorem scover0_B_0 (c : Dev nD) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : ¬cond0_0 i) (hc1 : ¬cond0_1 i) (x0 x1 : Vec F S4x512x3 .f32) (xs0 : Vec F S4x512 .f32) (y : S4x512.Idx) :
    ∃ pc ∈ (kernelRun0_B c i arg2 harg2 arg3 harg3 arg4 harg4 arg5 harg5 hc0 hc1 x0 x1 xs0).2.1, y ∈ pc.1.set :=
  View.cover_of_tiledL (kernelRun0_B c i arg2 harg2 arg3 harg3 arg4 harg4 arg5 harg5 hc0 hc1 x0 x1 xs0).2.1 S4x512.size (by sl_kernel_rfl) y

/-- What the point leaves in the scratch where 0 < j < 15. -/
def sout0_B_0 (c : Dev nD) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : ¬cond0_0 i) (hc1 : ¬cond0_1 i) (x0 x1 : Vec F S4x512x3 .f32) (xs0 : Vec F S4x512 .f32) : Vec F S4x512 .f32 :=
  VS0_0.read (Elt F) (VS0_0.writes (Elt F) VS0_0.junk (kernelRun0_B c i arg2 harg2 arg3 harg3 arg4 harg4 arg5 harg5 hc0 hc1 x0 x1 xs0).2.1)

/-- The output window's pieces where j = 15 cover it. -/
theorem cover0_C_2 (c : Dev nD) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : ¬cond0_0 i) (hc1 : cond0_1 i) (x0 x1 : Vec F S4x512x3 .f32) (xs0 : Vec F S4x512 .f32) (y : S4x512.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S4x512.size (by sl_kernel_rfl) y

/-- What the point leaves in the output window where j = 15. -/
def out0_C_2 (c : Dev nD) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : ¬cond0_0 i) (hc1 : cond0_1 i) (x0 x1 : Vec F S4x512x3 .f32) (xs0 : Vec F S4x512 .f32) : Vec F S4x512 .f32 :=
  VO0_2.read (Elt F) (VO0_2.writes (Elt F) VO0_2.junk (kernelRun0_C c i arg2 harg2 arg3 harg3 arg4 harg4 arg5 harg5 hc0 hc1 x0 x1 xs0).1)

theorem scover0_C_0 (c : Dev nD) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : ¬cond0_0 i) (hc1 : cond0_1 i) (x0 x1 : Vec F S4x512x3 .f32) (xs0 : Vec F S4x512 .f32) (y : S4x512.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S4x512.size (by sl_kernel_rfl) y

/-- What the point leaves in the scratch where j = 15. -/
def sout0_C_0 (c : Dev nD) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : ¬cond0_0 i) (hc1 : cond0_1 i) (x0 x1 : Vec F S4x512x3 .f32) (xs0 : Vec F S4x512 .f32) : Vec F S4x512 .f32 :=
  VS0_0.read (Elt F) (VS0_0.writes (Elt F) VS0_0.junk (kernelRun0_C c i arg2 harg2 arg3 harg3 arg4 harg4 arg5 harg5 hc0 hc1 x0 x1 xs0).2.1)

/-! ## What the buffers hold after each point -/

/-- After the point at position `n`: the output window's staging buffer and the scratch (a pair), by the case the point is in,
    the scratch the body reads being what position `n - 1` left. -/
def outsAt0 (c : Dev nD) : (n : ℕ) → n < cfg0.N → Vec F S4x512 .f32 × Vec F S4x512 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 16 = 0 then
      if h1 : (n + 1) % 16 = 15 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 16 = 15 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2)

/-- At a point with j = 0. -/
theorem outsAt0_A (c : Dev nD) (t : Fin cfg0.N) (h0 : t.val % 16 = 0) (h1 : ¬t.val % 16 = 15) :
    outsAt0 V c t.val t.isLt = (out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t), sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

/-- At a point with 0 < j < 15: over what the point before left. -/
theorem outsAt0_B (c : Dev nD) (t : Fin cfg0.N) (h0 : ¬t.val % 16 = 0) (h1 : ¬t.val % 16 = 15) :
    outsAt0 V c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a point with j = 15: over what the point before left. -/
theorem outsAt0_C (c : Dev nD) (t : Fin cfg0.N) (h0 : ¬t.val % 16 = 0) (h1 : t.val % 16 = 15) :
    outsAt0 V c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- Before position `n`: at the first point the class's invariant (every scoped buffer at anything); afterwards the scratch at
    what the point before left, the other pass's buffers at anything, the generator register at some state. -/
def PhiS0 (c : Dev nD) : (n : ℕ) → n ≤ cfg0.N → sProp 𝕄
  | 0, _ => Pipeline.ΦA spec0 c
  | n + 1, hn => iprop((owns (c : Thread nD τ) scM0_0 fullShare ((outsAt0 V c n hn).2) ∗ restS0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop((owns (c : Thread nD τ) scM0_0 fullShare ((outsAt0 V c n hn).2) ∗ restS0 c) ∗ (∃ r, prngReg c r)) := rfl

theorem PhiS0_pos (c : Dev nD) (n : ℕ) (h : n ≤ cfg0.N) (hz : n ≠ 0) :
    PhiS0 V c n h = iprop((owns (c : Thread nD τ) scM0_0 fullShare ((outsAt0 V c (n - 1) (by omega)).2) ∗ restS0 c) ∗ (∃ r, prngReg c r)) := by
  cases n with
  | zero => exact absurd rfl hz
  | succ n => rfl

/-! ## The proof data -/

/-- Region 0's proof data on core `c`: the arrays as the region finds them; after the body each input's buffer at its block,
    the output's at `outsAt0`'s first component; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' memrefs hold their blocks; the closed forms say which case the point is in; the invariant
    hands the body the scratch at what the point before left (at anything at the first point) and takes it back at this point's
    contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 256 := lt_of_lt_of_eq t.isLt (show cfg0.N = 256 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val % 16 = 0
  · have h1 : ¬t.val % 16 = 15 := by omega
    rw [Dat.leavesExact_idle (dat0 V c) 2 t (idleAt0_2_A t ((hcond0_0 t).mpr h0) (fun h => h1 ((hcond0_1 t).mp h))) (noFlush0_2_A t ((hcond0_0 t).mpr h0) (fun h => h1 ((hcond0_1 t).mp h)))]
    rw [outsAt0_A V c t h0 h1]
    unfold sout0_A_0; (try dsimp only)
    by_cases hz : t.val = 0
    · rw [PhiS0_castSucc V c t, PhiS0_zero V c _ _ hz, PhiA0_eq]
      iintro ⟨⟨⟨HS0, Hrest⟩, Hg⟩, Ho, ⟨%d0, H0⟩, ⟨%d1, H1⟩, ⟨%d2, H2⟩⟩
      iapply ((kernelRun0_A c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg Hrest]
      · isplitl [HS0 Hrest]
        · isplitl [HS0]
          · unfold owns; iexists _; isplitr
            swap; · iexact HS0
            ipureintro; exact View.read_writes_of_cover _ _ _ _ _ (scover0_A_0 c _ _ _ _ _ _ _ _ _ _ _ _ _)
          iexact Hrest
        iexact Hg
      isplitl [Ho]; · iexact Ho
      isplitl [H0]; · iexact H0
      isplitl [H1]; · iexact H1
      iexists _; iexact H2
    · rw [PhiS0_castSucc V c t, PhiS0_pos V c _ _ hz]
      iintro ⟨⟨⟨HS0, Hrest⟩, Hg⟩, Ho, ⟨%d0, H0⟩, ⟨%d1, H1⟩, ⟨%d2, H2⟩⟩
      iapply ((kernelRun0_A c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hg Hrest]
      · isplitl [HS0 Hrest]
        · isplitl [HS0]
          · unfold owns; iexists _; isplitr
            swap; · iexact HS0
            ipureintro; exact View.read_writes_of_cover _ _ _ _ _ (scover0_A_0 c _ _ _ _ _ _ _ _ _ _ _ _ _)
          iexact Hrest
        iexact Hg
      isplitl [Ho]; · iexact Ho
      isplitl [H0]; · iexact H0
      isplitl [H1]; · iexact H1
      iexists _; iexact H2
  · have hz : t.val ≠ 0 := fun h => h0 (by rw [h])
    by_cases h1 : t.val % 16 = 15
    · rw [show (dat0 V c).leavesExact 2 t = owns (c : Thread nD τ) (ms0_2 t) fullShare ((dat0 V c).after 2 t) from by
        unfold Dat.leavesExact; rw [liveAt0_2_C t (fun h => h0 ((hcond0_0 t).mp h)) ((hcond0_1 t).mpr h1)], after0_2]
      rw [outsAt0_C V c t h0 h1]
      unfold out0_C_2 sout0_C_0; (try dsimp only)
      rw [PhiS0_castSucc V c t, PhiS0_pos V c _ _ hz]
      iintro ⟨⟨⟨HS0, Hrest⟩, Hg⟩, Ho, ⟨%d0, H0⟩, ⟨%d1, H1⟩, ⟨%d2, H2⟩⟩
      iapply ((kernelRun0_C c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hg Hrest]
      · isplitl [HS0 Hrest]
        · isplitl [HS0]
          · unfold owns; iexists _; isplitr
            swap; · iexact HS0
            ipureintro; exact View.read_writes_of_cover _ _ _ _ _ (scover0_C_0 c _ _ _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _)
    · rw [Dat.leavesExact_idle (dat0 V c) 2 t (idleAt0_2_B t (fun h => h0 ((hcond0_0 t).mp h)) (fun h => h1 ((hcond0_1 t).mp h))) (noFlush0_2_B t (fun h => h0 ((hcond0_0 t).mp h)) (fun h => h1 ((hcond0_1 t).mp h)))]
      rw [outsAt0_B V c t h0 h1]
      unfold sout0_B_0; (try dsimp only)
      rw [PhiS0_castSucc V c t, PhiS0_pos V c _ _ hz]
      iintro ⟨⟨⟨HS0, Hrest⟩, Hg⟩, Ho, ⟨%d0, H0⟩, ⟨%d1, H1⟩, ⟨%d2, H2⟩⟩
      iapply ((kernelRun0_B c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg Hrest]
      · isplitl [HS0 Hrest]
        · isplitl [HS0]
          · unfold owns; iexists _; isplitr
            swap; · iexact HS0
            ipureintro; exact View.read_writes_of_cover _ _ _ _ _ (scover0_B_0 c _ _ _ _ _ _ _ _ _ _ _ _ _ _)
          iexact Hrest
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point the invariant gives the class's back: the scratch's named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, Hrest⟩, Hg⟩
  isplitl [HS0 Hrest]
  · isplitl [HS0]
    · iexists _; iexact HS0
    iexact Hrest
  iexact Hg

theorem hout0 (c : Dev nD) : (dat0 V c).Φ (Fin.last cfg0.N) ⊢ Pipeline.ΦA spec0 c :=
  Phi_out0 V c _ (by rw [Fin.val_last]; have : cfg0.N = 256 := N_0; omega)

end Cert.Kernel.Fr

end
-- ==== Proof.K.Runs1.lean ====
/- Region 1 (the pass that takes, for every point of the second cloud, the least squared distance to the first cloud):
   what its three control cases share. The grid point is (i, j): i picks the block of 512 points the result is for,
   j the block of 512 points of the other cloud the minimum runs over; the body resets its running minimum when j = 0,
   lowers it by the block's column minima at every j, and copies it out when j = 15. Here: the two conditions in closed form
   over the 256 points, where the output window is idle and where it is written back, the names of the staging
   and scratch memrefs, and the region invariant with the scratch split off. -/
import proofs.«116237_j481036337470_1_alg».proof.Proof.Gen.Kernel.Launch
import proofs.«116237_j481036337470_1_alg».proof.Proof.Gen.Kernel.Skeleton
import proofs.«116237_j481036337470_1_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the buffers' contents when the region is entered: a parameter, fixed by the launch
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions -/

/-- "j = 0", as the body computes it: the running minimum is reset. -/
abbrev cond1_0 (i : grid1.Coords) : Prop := (Scalar.cmpi .ne (Scalar.extui (Scalar.cmpi .eq (BitVec.ofNat 32 (i 1).val) 0#32)) 0#32) = 1#1
/-- It holds at the points ≡ 0 (mod 16). -/
theorem hcond1_0 : ∀ t : Fin cfg1.N, cond1_0 (grid1.coords t) ↔ t.val % 16 = 0 :=
  (by decide +kernel : ∀ t : Fin grid1.N, cond1_0 (grid1.coords t) ↔ t.val % 16 = 0)

/-- "j = 15", as the body computes it: the running minimum is copied out. -/
abbrev cond1_1 (i : grid1.Coords) : Prop := k1_cond2 i = 1#1
/-- It holds at the points ≡ 15 (mod 16). -/
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
/-- Where j = 0 the output window is idle and not written back. -/
theorem idleAt1_2_A : ∀ t : Fin cfg1.N, cond1_0 (grid1.coords t) → ¬cond1_1 (grid1.coords t) → cfg1.idle 2 (grid1.coords t) = true := by decide +kernel
theorem noFlush1_2_A : ∀ t : Fin cfg1.N, cond1_0 (grid1.coords t) → ¬cond1_1 (grid1.coords t) → (cfg1.win 2).flush t = false := by decide +kernel
/-- Where 0 < j < 15 likewise. -/
theorem idleAt1_2_B : ∀ t : Fin cfg1.N, ¬cond1_0 (grid1.coords t) → ¬cond1_1 (grid1.coords t) → cfg1.idle 2 (grid1.coords t) = true := by decide +kernel
theorem noFlush1_2_B : ∀ t : Fin cfg1.N, ¬cond1_0 (grid1.coords t) → ¬cond1_1 (grid1.coords t) → (cfg1.win 2).flush t = false := by decide +kernel
/-- Where j = 15 the body stores into it. -/
theorem liveAt1_2_C : ∀ t : Fin cfg1.N, ¬cond1_0 (grid1.coords t) → cond1_1 (grid1.coords t) → cfg1.idle 2 (grid1.coords t) = false := by decide +kernel

/-! ## The memrefs the body is called with -/

/-- One staging buffer of the output window, through which its contents are stated. -/
abbrev VO1_2 : View sig .tc .vmem S4x512 .f32 := (Memref.whole cc1_stg2_0 : Memref sig .tc .vmem S4x512 .f32).view
abbrev ms1_0 (t : Fin cfg1.N) : Memref sig .tc .vmem S4x512x3 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4x512x3 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S4x512 .f32 := win1_2.stage (cfg1.slots t 2)
abbrev hs1_2 (t : Fin cfg1.N) : (ms1_2 t).IsWhole := hstage1_2 ((cfg1.slots t 2).cast nbuf1_2)
/-- The running minimum's buffer. -/
abbrev scM1_0 : Memref sig .tc .vmem S4x512 .f32 := Memref.whole cc1_scratch0
abbrev VS1_0 : View sig .tc .vmem S4x512 .f32 := scM1_0.view

/-! ## The invariant, the running minimum split off -/

/-- The scoped buffers of the other pass, each whole at some contents: carried unopened. -/
def restS1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f))

/-- The class's invariant with the running minimum's buffer as a memref owned at some contents. -/
theorem scopedS1_eq (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f) ∗ restS1 c) := by
  unfold restS1
  exact Pipeline.scopedRest_eq_of_list spec1 c [cc1_scratch0, cc0_stg0_0, cc0_stg0_1, cc0_stg1_0, cc0_stg1_1, cc0_stg2_0, cc0_stg2_1, cc0_scratch0] (by decide) (by decide)

theorem PhiA1_eq (c : Dev nD) :
    (Pipeline.ΦA spec1 c : sProp 𝕄)
      = iprop(((∃ d, owns (c : Thread nD τ) scM1_0 fullShare d) ∗ restS1 c) ∗ (∃ r, prngReg c r)) := by
  unfold Pipeline.ΦA; rw [scopedS1_eq]; simp only [scM1_0, owns_whole]; rfl

end Cert.Kernel.Fr

end
-- ==== Proof.K.Run1A.lean ====
/- Region 1, the case j = 0: the running minimum is reset to +∞ and then lowered by the block's column minima; the output
   window is left as it was. The body's run on whole memrefs; the pieces the scratch ends with are what the run finds. -/
import proofs.«116237_j481036337470_1_alg».proof.Proof.K.Runs1

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body where j = 0, on whole memrefs: the inputs at their contents, the output at contents handed back untouched,
    the scratch at anything; it ends with the scratch's pieces written. -/
noncomputable def kernelRun1_A (c : Dev nD) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : cond1_0 i) (hc1 : ¬cond1_1 i)
    (x0 x1 : Vec F S4x512x3 .f32) :
    Σ' (L2 : List (View.Piece (Elt F) S4x512 .f32)), { LS0 : List (View.Piece (Elt F) S4x512 .f32) //
      ∀ (xi2 : Vec F S4x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__b2a_kernel i arg2 harg2 arg3 harg3 arg4 harg4 arg5 harg5) K } := by
  refine ⟨[], ?_, fun xi2 E K => ?run⟩
  case run =>
    simp only [cc1__b2a_kernel_eq_skeleton]; unfold cc1__b2a_kernel_skel
    simp only [k1_part1_eq_skeleton]
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Fr

end
-- ==== Proof.K.Run1B.lean ====
/- Region 1, the case 0 < j < 15: the running minimum the point before left is lowered by the block's column minima; the
   output window is left as it was. -/
import proofs.«116237_j481036337470_1_alg».proof.Proof.K.Run1A

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body where 0 < j < 15, on whole memrefs: the scratch at what the point before left (`xs0`). -/
noncomputable def kernelRun1_B (c : Dev nD) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : ¬cond1_0 i) (hc1 : ¬cond1_1 i)
    (x0 x1 : Vec F S4x512x3 .f32) (xs0 : Vec F S4x512 .f32) :
    Σ' (L2 : List (View.Piece (Elt F) S4x512 .f32)), { LS0 : List (View.Piece (Elt F) S4x512 .f32) //
      ∀ (xi2 : Vec F S4x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__b2a_kernel i arg2 harg2 arg3 harg3 arg4 harg4 arg5 harg5) K } := by
  refine ⟨[], ?_, fun xi2 E K => ?run⟩
  case run =>
    simp only [cc1__b2a_kernel_eq_skeleton]; unfold cc1__b2a_kernel_skel
    simp only [k1_part1_eq_skeleton]
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Fr

end
-- ==== Proof.K.Run1C.lean ====
/- Region 1, the case j = 15: the running minimum the point before left is lowered by the last block's column minima and
   then copied into the output window. -/
import proofs.«116237_j481036337470_1_alg».proof.Proof.K.Run1B

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body where j = 15, on whole memrefs: the scratch at what the point before left (`xs0`), the output at anything;
    both end with their pieces written. -/
noncomputable def kernelRun1_C (c : Dev nD) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : ¬cond1_0 i) (hc1 : cond1_1 i)
    (x0 x1 : Vec F S4x512x3 .f32) (xs0 : Vec F S4x512 .f32) :
    Σ' (L2 : List (View.Piece (Elt F) S4x512 .f32)), { LS0 : List (View.Piece (Elt F) S4x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__b2a_kernel i arg2 harg2 arg3 harg3 arg4 harg4 arg5 harg5) K } := by
  refine ⟨?_, ?_, fun E K => ?run⟩
  case run =>
    simp only [cc1__b2a_kernel_eq_skeleton]; unfold cc1__b2a_kernel_skel
    simp only [k1_part1_eq_skeleton]
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Fr

end
-- ==== Proof.K.Frame1.lean ====
/- Region 1: what the running minimum and the output window hold after each grid point, the region invariant that carries
   the running minimum from one point to the next, the proof data, and the body obligation at every point. After the point
   (i, j) the scratch holds what the case's run left: at j = 0 the reset value lowered by block 0's column minima, at j > 0
   what the point before left lowered by block j's; the output window is stored into only at j = 15. -/
import proofs.«116237_j481036337470_1_alg».proof.Proof.K.Run1C

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- Where j = 0 nothing is stored into the output window: a placeholder nothing consults. -/
def out1_A_2 (c : Dev nD) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : cond1_0 i) (hc1 : ¬cond1_1 i) (x0 x1 : Vec F S4x512x3 .f32) : Vec F S4x512 .f32 :=
  VO1_2.read (Elt F) (VO1_2.writes (Elt F) VO1_2.junk (kernelRun1_A c i arg2 harg2 arg3 harg3 arg4 harg4 arg5 harg5 hc0 hc1 x0 x1).1)

/-- The scratch's pieces where j = 0 cover it. -/
theorem scover1_A_0 (c : Dev nD) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : cond1_0 i) (hc1 : ¬cond1_1 i) (x0 x1 : Vec F S4x512x3 .f32) (y : S4x512.Idx) :
    ∃ pc ∈ (kernelRun1_A c i arg2 harg2 arg3 harg3 arg4 harg4 arg5 harg5 hc0 hc1 x0 x1).2.1, y ∈ pc.1.set :=
  View.cover_of_tiledL (kernelRun1_A c i arg2 harg2 arg3 harg3 arg4 harg4 arg5 harg5 hc0 hc1 x0 x1).2.1 S4x512.size (by sl_kernel_rfl) y

/-- What the point leaves in the scratch where j = 0. -/
def sout1_A_0 (c : Dev nD) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : cond1_0 i) (hc1 : ¬cond1_1 i) (x0 x1 : Vec F S4x512x3 .f32) : Vec F S4x512 .f32 :=
  VS1_0.read (Elt F) (VS1_0.writes (Elt F) VS1_0.junk (kernelRun1_A c i arg2 harg2 arg3 harg3 arg4 harg4 arg5 harg5 hc0 hc1 x0 x1).2.1)

def out1_B_2 (c : Dev nD) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : ¬cond1_0 i) (hc1 : ¬cond1_1 i) (x0 x1 : Vec F S4x512x3 .f32) (xs0 : Vec F S4x512 .f32) : Vec F S4x512 .f32 :=
  VO1_2.read (Elt F) (VO1_2.writes (Elt F) VO1_2.junk (kernelRun1_B c i arg2 harg2 arg3 harg3 arg4 harg4 arg5 harg5 hc0 hc1 x0 x1 xs0).1)

theorem scover1_B_0 (c : Dev nD) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : ¬cond1_0 i) (hc1 : ¬cond1_1 i) (x0 x1 : Vec F S4x512x3 .f32) (xs0 : Vec F S4x512 .f32) (y : S4x512.Idx) :
    ∃ pc ∈ (kernelRun1_B c i arg2 harg2 arg3 harg3 arg4 harg4 arg5 harg5 hc0 hc1 x0 x1 xs0).2.1, y ∈ pc.1.set :=
  View.cover_of_tiledL (kernelRun1_B c i arg2 harg2 arg3 harg3 arg4 harg4 arg5 harg5 hc0 hc1 x0 x1 xs0).2.1 S4x512.size (by sl_kernel_rfl) y

/-- What the point leaves in the scratch where 0 < j < 15. -/
def sout1_B_0 (c : Dev nD) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : ¬cond1_0 i) (hc1 : ¬cond1_1 i) (x0 x1 : Vec F S4x512x3 .f32) (xs0 : Vec F S4x512 .f32) : Vec F S4x512 .f32 :=
  VS1_0.read (Elt F) (VS1_0.writes (Elt F) VS1_0.junk (kernelRun1_B c i arg2 harg2 arg3 harg3 arg4 harg4 arg5 harg5 hc0 hc1 x0 x1 xs0).2.1)

/-- The output window's pieces where j = 15 cover it. -/
theorem cover1_C_2 (c : Dev nD) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : ¬cond1_0 i) (hc1 : cond1_1 i) (x0 x1 : Vec F S4x512x3 .f32) (xs0 : Vec F S4x512 .f32) (y : S4x512.Idx) :
    ∃ pc ∈ (kernelRun1_C c i arg2 harg2 arg3 harg3 arg4 harg4 arg5 harg5 hc0 hc1 x0 x1 xs0).1, y ∈ pc.1.set :=
  View.cover_of_tiledL (kernelRun1_C c i arg2 harg2 arg3 harg3 arg4 harg4 arg5 harg5 hc0 hc1 x0 x1 xs0).1 S4x512.size (by sl_kernel_rfl) y

/-- What the point leaves in the output window where j = 15. -/
def out1_C_2 (c : Dev nD) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : ¬cond1_0 i) (hc1 : cond1_1 i) (x0 x1 : Vec F S4x512x3 .f32) (xs0 : Vec F S4x512 .f32) : Vec F S4x512 .f32 :=
  VO1_2.read (Elt F) (VO1_2.writes (Elt F) VO1_2.junk (kernelRun1_C c i arg2 harg2 arg3 harg3 arg4 harg4 arg5 harg5 hc0 hc1 x0 x1 xs0).1)

theorem scover1_C_0 (c : Dev nD) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : ¬cond1_0 i) (hc1 : cond1_1 i) (x0 x1 : Vec F S4x512x3 .f32) (xs0 : Vec F S4x512 .f32) (y : S4x512.Idx) :
    ∃ pc ∈ (kernelRun1_C c i arg2 harg2 arg3 harg3 arg4 harg4 arg5 harg5 hc0 hc1 x0 x1 xs0).2.1, y ∈ pc.1.set :=
  View.cover_of_tiledL (kernelRun1_C c i arg2 harg2 arg3 harg3 arg4 harg4 arg5 harg5 hc0 hc1 x0 x1 xs0).2.1 S4x512.size (by sl_kernel_rfl) y

/-- What the point leaves in the scratch where j = 15. -/
def sout1_C_0 (c : Dev nD) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : ¬cond1_0 i) (hc1 : cond1_1 i) (x0 x1 : Vec F S4x512x3 .f32) (xs0 : Vec F S4x512 .f32) : Vec F S4x512 .f32 :=
  VS1_0.read (Elt F) (VS1_0.writes (Elt F) VS1_0.junk (kernelRun1_C c i arg2 harg2 arg3 harg3 arg4 harg4 arg5 harg5 hc0 hc1 x0 x1 xs0).2.1)

/-! ## What the buffers hold after each point -/

/-- After the point at position `n`: the output window's staging buffer and the scratch (a pair), by the case the point is in,
    the scratch the body reads being what position `n - 1` left. -/
def outsAt1 (c : Dev nD) : (n : ℕ) → n < cfg1.N → Vec F S4x512 .f32 × Vec F S4x512 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 16 = 0 then
      if h1 : (n + 1) % 16 = 15 then
        False.elim (by omega)
      else
        (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 16 = 15 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

/-- At a point with j = 0. -/
theorem outsAt1_A (c : Dev nD) (t : Fin cfg1.N) (h0 : t.val % 16 = 0) (h1 : ¬t.val % 16 = 15) :
    outsAt1 V c t.val t.isLt = (out1_A_2 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t), sout1_A_0 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

/-- At a point with 0 < j < 15: over what the point before left. -/
theorem outsAt1_B (c : Dev nD) (t : Fin cfg1.N) (h0 : ¬t.val % 16 = 0) (h1 : ¬t.val % 16 = 15) :
    outsAt1 V c t.val t.isLt = (out1_B_2 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a point with j = 15: over what the point before left. -/
theorem outsAt1_C (c : Dev nD) (t : Fin cfg1.N) (h0 : ¬t.val % 16 = 0) (h1 : t.val % 16 = 15) :
    outsAt1 V c t.val t.isLt = (out1_C_2 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- Before position `n`: at the first point the class's invariant (every scoped buffer at anything); afterwards the scratch at
    what the point before left, the other pass's buffers at anything, the generator register at some state. -/
def PhiS1 (c : Dev nD) : (n : ℕ) → n ≤ cfg1.N → sProp 𝕄
  | 0, _ => Pipeline.ΦA spec1 c
  | n + 1, hn => iprop((owns (c : Thread nD τ) scM1_0 fullShare ((outsAt1 V c n hn).2) ∗ restS1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop((owns (c : Thread nD τ) scM1_0 fullShare ((outsAt1 V c n hn).2) ∗ restS1 c) ∗ (∃ r, prngReg c r)) := rfl

theorem PhiS1_pos (c : Dev nD) (n : ℕ) (h : n ≤ cfg1.N) (hz : n ≠ 0) :
    PhiS1 V c n h = iprop((owns (c : Thread nD τ) scM1_0 fullShare ((outsAt1 V c (n - 1) (by omega)).2) ∗ restS1 c) ∗ (∃ r, prngReg c r)) := by
  cases n with
  | zero => exact absurd rfl hz
  | succ n => rfl

/-! ## The proof data -/

/-- Region 1's proof data on core `c`: the arrays as the region finds them; after the body each input's buffer at its block,
    the output's at `outsAt1`'s first component; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the inputs' memrefs hold their blocks; the closed forms say which case the point is in; the invariant
    hands the body the scratch at what the point before left (at anything at the first point) and takes it back at this point's
    contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 256 := lt_of_lt_of_eq t.isLt (show cfg1.N = 256 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h0 : t.val % 16 = 0
  · have h1 : ¬t.val % 16 = 15 := by omega
    rw [Dat.leavesExact_idle (dat1 V c) 2 t (idleAt1_2_A t ((hcond1_0 t).mpr h0) (fun h => h1 ((hcond1_1 t).mp h))) (noFlush1_2_A t ((hcond1_0 t).mpr h0) (fun h => h1 ((hcond1_1 t).mp h)))]
    rw [outsAt1_A V c t h0 h1]
    unfold sout1_A_0; (try dsimp only)
    by_cases hz : t.val = 0
    · rw [PhiS1_castSucc V c t, PhiS1_zero V c _ _ hz, PhiA1_eq]
      iintro ⟨⟨⟨HS0, Hrest⟩, Hg⟩, Ho, ⟨%d0, H0⟩, ⟨%d1, H1⟩, ⟨%d2, H2⟩⟩
      iapply ((kernelRun1_A c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg Hrest]
      · isplitl [HS0 Hrest]
        · isplitl [HS0]
          · unfold owns; iexists _; isplitr
            swap; · iexact HS0
            ipureintro; exact View.read_writes_of_cover _ _ _ _ _ (scover1_A_0 c _ _ _ _ _ _ _ _ _ _ _ _ _)
          iexact Hrest
        iexact Hg
      isplitl [Ho]; · iexact Ho
      isplitl [H0]; · iexact H0
      isplitl [H1]; · iexact H1
      iexists _; iexact H2
    · rw [PhiS1_castSucc V c t, PhiS1_pos V c _ _ hz]
      iintro ⟨⟨⟨HS0, Hrest⟩, Hg⟩, Ho, ⟨%d0, H0⟩, ⟨%d1, H1⟩, ⟨%d2, H2⟩⟩
      iapply ((kernelRun1_A c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hg Hrest]
      · isplitl [HS0 Hrest]
        · isplitl [HS0]
          · unfold owns; iexists _; isplitr
            swap; · iexact HS0
            ipureintro; exact View.read_writes_of_cover _ _ _ _ _ (scover1_A_0 c _ _ _ _ _ _ _ _ _ _ _ _ _)
          iexact Hrest
        iexact Hg
      isplitl [Ho]; · iexact Ho
      isplitl [H0]; · iexact H0
      isplitl [H1]; · iexact H1
      iexists _; iexact H2
  · have hz : t.val ≠ 0 := fun h => h0 (by rw [h])
    by_cases h1 : t.val % 16 = 15
    · rw [show (dat1 V c).leavesExact 2 t = owns (c : Thread nD τ) (ms1_2 t) fullShare ((dat1 V c).after 2 t) from by
        unfold Dat.leavesExact; rw [liveAt1_2_C t (fun h => h0 ((hcond1_0 t).mp h)) ((hcond1_1 t).mpr h1)], after1_2]
      rw [outsAt1_C V c t h0 h1]
      unfold out1_C_2 sout1_C_0; (try dsimp only)
      rw [PhiS1_castSucc V c t, PhiS1_pos V c _ _ hz]
      iintro ⟨⟨⟨HS0, Hrest⟩, Hg⟩, Ho, ⟨%d0, H0⟩, ⟨%d1, H1⟩, ⟨%d2, H2⟩⟩
      iapply ((kernelRun1_C c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hg Hrest]
      · isplitl [HS0 Hrest]
        · isplitl [HS0]
          · unfold owns; iexists _; isplitr
            swap; · iexact HS0
            ipureintro; exact View.read_writes_of_cover _ _ _ _ _ (scover1_C_0 c _ _ _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C_2 c _ _ _ _ _ _ _ _ _ _ _ _ _ _)
    · rw [Dat.leavesExact_idle (dat1 V c) 2 t (idleAt1_2_B t (fun h => h0 ((hcond1_0 t).mp h)) (fun h => h1 ((hcond1_1 t).mp h))) (noFlush1_2_B t (fun h => h0 ((hcond1_0 t).mp h)) (fun h => h1 ((hcond1_1 t).mp h)))]
      rw [outsAt1_B V c t h0 h1]
      unfold sout1_B_0; (try dsimp only)
      rw [PhiS1_castSucc V c t, PhiS1_pos V c _ _ hz]
      iintro ⟨⟨⟨HS0, Hrest⟩, Hg⟩, Ho, ⟨%d0, H0⟩, ⟨%d1, H1⟩, ⟨%d2, H2⟩⟩
      iapply ((kernelRun1_B c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg Hrest]
      · isplitl [HS0 Hrest]
        · isplitl [HS0]
          · unfold owns; iexists _; isplitr
            swap; · iexact HS0
            ipureintro; exact View.read_writes_of_cover _ _ _ _ _ (scover1_B_0 c _ _ _ _ _ _ _ _ _ _ _ _ _ _)
          iexact Hrest
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives the class's back: the scratch's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, Hrest⟩, Hg⟩
  isplitl [HS0 Hrest]
  · isplitl [HS0]
    · iexists _; iexact HS0
    iexact Hrest
  iexact Hg

theorem hout1 (c : Dev nD) : (dat1 V c).Φ (Fin.last cfg1.N) ⊢ Pipeline.ΦA spec1 c :=
  Phi_out1 V c _ (by rw [Fin.val_last]; have : cfg1.N = 256 := N_1; omega)

end Cert.Kernel.Fr

end
-- ==== Proof.K.Launch.lean ====
/- The whole program's run: the buffers' contents at each boundary between @main's three items (region 0, region 1, the
   closing host operations that average the two arrays of minima and add the averages), each region as a segment over its
   proof data, the host operations as a segment, and the launch. Its post names every unscoped buffer's final contents:
   the frame and the value are both read off it. -/
import proofs.«116237_j481036337470_1_alg».proof.Proof.K.Frame0
import proofs.«116237_j481036337470_1_alg».proof.Proof.K.Frame1

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch (region 0's entry: no host operation comes before it). -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

/-- At region 0's exit: its arrays at what the pipeline leaves (the inputs as entered, the output's write-backs folded),
    every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- The same read at the TensorCore's references. -/
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- At region 1's exit: its arrays at what the pipeline leaves (the inputs as entered, the output's write-backs folded),
    every other buffer as entered. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
/-- The same read at the TensorCore's references. -/
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-- After the closing host operations. -/
abbrev W3 : Dev nD → Valuation τ sig (Elt F) := fun c => StableHlo.after hostOps2 (W2 m ρ c)

/-! ## The proof data family and the thread state -/

abbrev adm : (p : Fin 2) → (pcfgs (F := F) p).Adm := fun p => (cfgs p).toPCfg_adm
/-- Each region's proof data at its entry contents: a literal match on the region's index. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)

theorem hostOps2_fresh' : (hostOps2 : List (HloOp τ sig (Elt F))).Forall fun op => op.fresh = ∅ := by
  simp only [List.Forall]; repeat' constructor

/-- The closing host operations as a segment, from region 1's exit contents. -/
abbrev hseg2 : Pipeline.HostSeg (Name := ℕ) (U := UR sig nD τ) (pcfgs (F := F)) defs₀ 𝒱₀ L lv :=
  Pipeline.HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh') op h) (W2 m ρ) R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the `owes`. -/
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- Region 0 as a segment: entered from every unscoped buffer at `W0`, left at `W1`. Its arrays are split out of
    the unscoped buffers and put back at what the write-backs leave; the generator register goes into the invariant and
    comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin0 (V0 m ρ) c)
    unfold Pipeline.ΦA
    iintro ⟨Hp, -, Hr⟩
    isplitl [Hr]; · iexact Hr
    iexact Hp
  hout c := by
    rw [Pipeline.ownSems0_none]
    refine (hout0 (V0 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered from every unscoped buffer at `W1`, left at `W2`. Its arrays are split out of
    the unscoped buffers and put back at what the write-backs leave; the generator register goes into the invariant and
    comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (V1 m ρ) c)
    unfold Pipeline.ΦA
    iintro ⟨Hp, -, Hr⟩
    isplitl [Hr]; · iexact Hr
    iexact Hp
  hout c := by
    rw [Pipeline.ownSems0_none]
    refine (hout1 (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ), .region (reg1 m ρ), .host (hseg2 m ρ) ]

theorem main_run (c : Dev nD) : main (F := F) c = Pipeline.Seg.run (segs m ρ) := (main_chain c).trans (by chain_rfl)

set_option backward.isDefEq.respectTransparency.types false in
/-- Every weakly fair execution of @main from memory `m` with zero counters terminates, nothing faulting, and every final
    state holds each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      show iprop(StableHlo.held (c : Thread nD τ) (Pipeline.ucRefs τ sig) (W3 m ρ c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

end Cert.Kernel.Fr

end
-- ==== Proof.K.Args.lean ====
/- The frame, read off the program's run: no item of @main writes an argument. The closing host operations write only
   their own results; each region reads an argument through an input window, whose array ends as it was entered. So at the
   last boundary each argument's buffer holds its launch contents, and the run's post gives the frame claim's. -/
import proofs.«116237_j481036337470_1_alg».proof.Proof.K.Launch
import proofs.«116237_j481036337470_1_alg».proof.Proof.Gen.Kernel.Regions

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Region 0 leaves the first cloud's array as launched, -/
theorem W1_main_arg0 (c : Dev nD) : W1 m ρ c (Proc.devRef .tc main_arg0) = m ((c : Thread nD τ).loc main_arg0) :=
  (W1_arr m ρ c 0).trans (((dat0 (V0 m ρ) c).arrAt_in 0 rfl _).trans (A_eq0 (V0 m ρ) c 0))
/-- and the second's; -/
theorem W1_main_arg1 (c : Dev nD) : W1 m ρ c (Proc.devRef .tc main_arg1) = m ((c : Thread nD τ).loc main_arg1) :=
  (W1_arr m ρ c 1).trans (((dat0 (V0 m ρ) c).arrAt_in 1 rfl _).trans (A_eq0 (V0 m ρ) c 1))
/-- so does region 1. -/
theorem W2_main_arg0 (c : Dev nD) : W2 m ρ c (Proc.devRef .tc main_arg0) = m ((c : Thread nD τ).loc main_arg0) :=
  (W2_arr m ρ c 0).trans ((((dat1 (V1 m ρ) c).arrAt_in 0 rfl _).trans (A_eq1 (V1 m ρ) c 0)).trans (W1_main_arg0 m ρ c))
theorem W2_main_arg1 (c : Dev nD) : W2 m ρ c (Proc.devRef .tc main_arg1) = m ((c : Thread nD τ).loc main_arg1) :=
  (W2_arr m ρ c 1).trans ((((dat1 (V1 m ρ) c).arrAt_in 1 rfl _).trans (A_eq1 (V1 m ρ) c 1)).trans (W1_main_arg1 m ρ c))

/-- The closing host operations write neither argument. -/
theorem W3_main_arg0 (c : Dev nD) : W3 m ρ c (Proc.devRef .tc main_arg0) = m ((c : Thread nD τ).loc main_arg0) :=
  (StableHlo.after_of_writes_sub hostOps2 _ hostOps2_writes (by decide : main_arg0 ∉ hostOps2_W)).trans (W2_main_arg0 m ρ c)
theorem W3_main_arg1 (c : Dev nD) : W3 m ρ c (Proc.devRef .tc main_arg1) = m ((c : Thread nD τ).loc main_arg1) :=
  (StableHlo.after_of_writes_sub hostOps2 _ hostOps2_writes (by decide : main_arg1 ∉ hostOps2_W)).trans (W2_main_arg1 m ρ c)

/-- THE FRAME: every weakly fair execution of @main terminates, nothing faulting, and both arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W3_main_arg0 m ρ c),
     (h c _ (mem_uc main_arg1 (by decide))).trans (W3_main_arg1 m ρ c)⟩) (run_all m ρ)

end Cert.Kernel.Fr

end
-- ==== Proof.KI.Runs0.lean ====
/- Region 0 (the pass that takes, for every point of the first cloud, the least squared distance to the second cloud):
   what its three control cases share. The grid point is (i, j): i picks the block of 512 points the result is for,
   j the block of 512 points of the other cloud the minimum runs over; the body resets its running minimum when j = 0,
   lowers it by the block's row minima at every j, and copies it out when j = 15. Here: the two conditions in closed form
   over the 256 points, where the output window is idle and where it is written back, the names of the staging
   and scratch memrefs, and the region invariant with the scratch split off. -/
import proofs.«116237_j481036337470_1_alg».proof.Proof.Gen.KernelIdeal.Launch
import proofs.«116237_j481036337470_1_alg».proof.Proof.Gen.KernelIdeal.Skeleton
import proofs.«116237_j481036337470_1_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the buffers' contents when the region is entered: a parameter, fixed by the launch
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's two conditions -/

/-- "j = 0", as the body computes it: the running minimum is reset. -/
abbrev cond0_0 (i : grid0.Coords) : Prop := (Scalar.cmpi .ne (Scalar.extui (Scalar.cmpi .eq (BitVec.ofNat 32 (i 1).val) 0#32)) 0#32) = 1#1
/-- It holds at the points ≡ 0 (mod 16). -/
theorem hcond0_0 : ∀ t : Fin cfg0.N, cond0_0 (grid0.coords t) ↔ t.val % 16 = 0 :=
  (by decide +kernel : ∀ t : Fin grid0.N, cond0_0 (grid0.coords t) ↔ t.val % 16 = 0)

/-- "j = 15", as the body computes it: the running minimum is copied out. -/
abbrev cond0_1 (i : grid0.Coords) : Prop := k0_cond2 i = 1#1
/-- It holds at the points ≡ 15 (mod 16). -/
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Where j = 0 the output window is idle and not written back. -/
theorem idleAt0_2_A : ∀ t : Fin cfg0.N, cond0_0 (grid0.coords t) → ¬cond0_1 (grid0.coords t) → cfg0.idle 2 (grid0.coords t) = true := by decide +kernel
theorem noFlush0_2_A : ∀ t : Fin cfg0.N, cond0_0 (grid0.coords t) → ¬cond0_1 (grid0.coords t) → (cfg0.win 2).flush t = false := by decide +kernel
/-- Where 0 < j < 15 likewise. -/
theorem idleAt0_2_B : ∀ t : Fin cfg0.N, ¬cond0_0 (grid0.coords t) → ¬cond0_1 (grid0.coords t) → cfg0.idle 2 (grid0.coords t) = true := by decide +kernel
theorem noFlush0_2_B : ∀ t : Fin cfg0.N, ¬cond0_0 (grid0.coords t) → ¬cond0_1 (grid0.coords t) → (cfg0.win 2).flush t = false := by decide +kernel
/-- Where j = 15 the body stores into it. -/
theorem liveAt0_2_C : ∀ t : Fin cfg0.N, ¬cond0_0 (grid0.coords t) → cond0_1 (grid0.coords t) → cfg0.idle 2 (grid0.coords t) = false := by decide +kernel

/-! ## The memrefs the body is called with -/

/-- One staging buffer of the output window, through which its contents are stated. -/
abbrev VO0_2 : View sig .tc .vmem S4x512 .f32 := (Memref.whole cc0_stg2_0 : Memref sig .tc .vmem S4x512 .f32).view
abbrev ms0_0 (t : Fin cfg0.N) : Memref sig .tc .vmem S4x512x3 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4x512x3 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4x512 .f32 := win0_2.stage (cfg0.slots t 2)
abbrev hs0_2 (t : Fin cfg0.N) : (ms0_2 t).IsWhole := hstage0_2 ((cfg0.slots t 2).cast nbuf0_2)
/-- The running minimum's buffer. -/
abbrev scM0_0 : Memref sig .tc .vmem S4x512 .f32 := Memref.whole cc0_scratch0
abbrev VS0_0 : View sig .tc .vmem S4x512 .f32 := scM0_0.view

/-! ## The invariant, the running minimum split off -/

/-- The scoped buffers of the other pass, each whole at some contents: carried unopened. -/
def restS0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- The class's invariant with the running minimum's buffer as a memref owned at some contents. -/
theorem scopedS0_eq (c : Dev nD) :
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f) ∗ restS0 c) := by
  unfold restS0
  exact Pipeline.scopedRest_eq_of_list spec0 c [cc0_scratch0, cc1_stg0_0, cc1_stg0_1, cc1_stg1_0, cc1_stg1_1, cc1_stg2_0, cc1_stg2_1, cc1_scratch0] (by decide) (by decide)

theorem PhiA0_eq (c : Dev nD) :
    (Pipeline.ΦA spec0 c : sProp 𝕄)
      = iprop(((∃ d, owns (c : Thread nD τ) scM0_0 fullShare d) ∗ restS0 c) ∗ (∃ r, prngReg c r)) := by
  unfold Pipeline.ΦA; rw [scopedS0_eq]; simp only [scM0_0, owns_whole]; rfl

end Cert.KernelIdeal.Fr

end
-- ==== Proof.KI.Run0A.lean ====
/- Region 0, the case j = 0: the running minimum is reset to +∞ and then lowered by the block's row minima; the output
   window is left as it was. The body's run on whole memrefs; the pieces the scratch ends with are what the run finds. -/
import proofs.«116237_j481036337470_1_alg».proof.Proof.KI.Runs0

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body where j = 0, on whole memrefs: the inputs at their contents, the output at contents handed back untouched,
    the scratch at anything; it ends with the scratch's pieces written. -/
noncomputable def kernelRun0_A (c : Dev nD) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : cond0_0 i) (hc1 : ¬cond0_1 i)
    (x0 x1 : Vec F S4x512x3 .f32) :
    Σ' (L2 : List (View.Piece (Elt F) S4x512 .f32)), { LS0 : List (View.Piece (Elt F) S4x512 .f32) //
      ∀ (xi2 : Vec F S4x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__a2b_kernel i arg2 harg2 arg3 harg3 arg4 harg4 arg5 harg5) K } := by
  refine ⟨[], ?_, fun xi2 E K => ?run⟩
  case run =>
    simp only [cc0__a2b_kernel_eq_skeleton]; unfold cc0__a2b_kernel_skel
    simp only [k0_part1_eq_skeleton]
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Fr

end
-- ==== Proof.KI.Run0B.lean ====
/- Region 0, the case 0 < j < 15: the running minimum the point before left is lowered by the block's row minima; the
   output window is left as it was. -/
import proofs.«116237_j481036337470_1_alg».proof.Proof.KI.Run0A

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body where 0 < j < 15, on whole memrefs: the scratch at what the point before left (`xs0`). -/
noncomputable def kernelRun0_B (c : Dev nD) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : ¬cond0_0 i) (hc1 : ¬cond0_1 i)
    (x0 x1 : Vec F S4x512x3 .f32) (xs0 : Vec F S4x512 .f32) :
    Σ' (L2 : List (View.Piece (Elt F) S4x512 .f32)), { LS0 : List (View.Piece (Elt F) S4x512 .f32) //
      ∀ (xi2 : Vec F S4x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__a2b_kernel i arg2 harg2 arg3 harg3 arg4 harg4 arg5 harg5) K } := by
  refine ⟨[], ?_, fun xi2 E K => ?run⟩
  case run =>
    simp only [cc0__a2b_kernel_eq_skeleton]; unfold cc0__a2b_kernel_skel
    simp only [k0_part1_eq_skeleton]
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Fr

end
-- ==== Proof.KI.Run0C.lean ====
/- Region 0, the case j = 15: the running minimum the point before left is lowered by the last block's row minima and
   then copied into the output window. -/
import proofs.«116237_j481036337470_1_alg».proof.Proof.KI.Run0B

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body where j = 15, on whole memrefs: the scratch at what the point before left (`xs0`), the output at anything;
    both end with their pieces written. -/
noncomputable def kernelRun0_C (c : Dev nD) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : ¬cond0_0 i) (hc1 : cond0_1 i)
    (x0 x1 : Vec F S4x512x3 .f32) (xs0 : Vec F S4x512 .f32) :
    Σ' (L2 : List (View.Piece (Elt F) S4x512 .f32)), { LS0 : List (View.Piece (Elt F) S4x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__a2b_kernel i arg2 harg2 arg3 harg3 arg4 harg4 arg5 harg5) K } := by
  refine ⟨?_, ?_, fun E K => ?run⟩
  case run =>
    simp only [cc0__a2b_kernel_eq_skeleton]; unfold cc0__a2b_kernel_skel
    simp only [k0_part1_eq_skeleton]
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Fr

end
-- ==== Proof.KI.Frame0.lean ====
/- Region 0: what the running minimum and the output window hold after each grid point, the region invariant that carries
   the running minimum from one point to the next, the proof data, and the body obligation at every point. After the point
   (i, j) the scratch holds what the case's run left: at j = 0 the reset value lowered by block 0's row minima, at j > 0
   what the point before left lowered by block j's; the output window is stored into only at j = 15. -/
import proofs.«116237_j481036337470_1_alg».proof.Proof.KI.Run0C

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- Where j = 0 nothing is stored into the output window: a placeholder nothing consults. -/
def out0_A_2 (c : Dev nD) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : cond0_0 i) (hc1 : ¬cond0_1 i) (x0 x1 : Vec F S4x512x3 .f32) : Vec F S4x512 .f32 :=
  VO0_2.read (Elt F) (VO0_2.writes (Elt F) VO0_2.junk (kernelRun0_A c i arg2 harg2 arg3 harg3 arg4 harg4 arg5 harg5 hc0 hc1 x0 x1).1)

/-- The scratch's pieces where j = 0 cover it. -/
theorem scover0_A_0 (c : Dev nD) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : cond0_0 i) (hc1 : ¬cond0_1 i) (x0 x1 : Vec F S4x512x3 .f32) (y : S4x512.Idx) :
    ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S4x512.size (by sl_kernel_rfl) y

/-- What the point leaves in the scratch where j = 0. -/
def sout0_A_0 (c : Dev nD) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : cond0_0 i) (hc1 : ¬cond0_1 i) (x0 x1 : Vec F S4x512x3 .f32) : Vec F S4x512 .f32 :=
  VS0_0.read (Elt F) (VS0_0.writes (Elt F) VS0_0.junk (kernelRun0_A c i arg2 harg2 arg3 harg3 arg4 harg4 arg5 harg5 hc0 hc1 x0 x1).2.1)

def out0_B_2 (c : Dev nD) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : ¬cond0_0 i) (hc1 : ¬cond0_1 i) (x0 x1 : Vec F S4x512x3 .f32) (xs0 : Vec F S4x512 .f32) : Vec F S4x512 .f32 :=
  VO0_2.read (Elt F) (VO0_2.writes (Elt F) VO0_2.junk (kernelRun0_B c i arg2 harg2 arg3 harg3 arg4 harg4 arg5 harg5 hc0 hc1 x0 x1 xs0).1)

theorem scover0_B_0 (c : Dev nD) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : ¬cond0_0 i) (hc1 : ¬cond0_1 i) (x0 x1 : Vec F S4x512x3 .f32) (xs0 : Vec F S4x512 .f32) (y : S4x512.Idx) :
    ∃ pc ∈ (kernelRun0_B c i arg2 harg2 arg3 harg3 arg4 harg4 arg5 harg5 hc0 hc1 x0 x1 xs0).2.1, y ∈ pc.1.set :=
  View.cover_of_tiledL (kernelRun0_B c i arg2 harg2 arg3 harg3 arg4 harg4 arg5 harg5 hc0 hc1 x0 x1 xs0).2.1 S4x512.size (by sl_kernel_rfl) y

/-- What the point leaves in the scratch where 0 < j < 15. -/
def sout0_B_0 (c : Dev nD) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : ¬cond0_0 i) (hc1 : ¬cond0_1 i) (x0 x1 : Vec F S4x512x3 .f32) (xs0 : Vec F S4x512 .f32) : Vec F S4x512 .f32 :=
  VS0_0.read (Elt F) (VS0_0.writes (Elt F) VS0_0.junk (kernelRun0_B c i arg2 harg2 arg3 harg3 arg4 harg4 arg5 harg5 hc0 hc1 x0 x1 xs0).2.1)

/-- The output window's pieces where j = 15 cover it. -/
theorem cover0_C_2 (c : Dev nD) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : ¬cond0_0 i) (hc1 : cond0_1 i) (x0 x1 : Vec F S4x512x3 .f32) (xs0 : Vec F S4x512 .f32) (y : S4x512.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S4x512.size (by sl_kernel_rfl) y

/-- What the point leaves in the output window where j = 15. -/
def out0_C_2 (c : Dev nD) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : ¬cond0_0 i) (hc1 : cond0_1 i) (x0 x1 : Vec F S4x512x3 .f32) (xs0 : Vec F S4x512 .f32) : Vec F S4x512 .f32 :=
  VO0_2.read (Elt F) (VO0_2.writes (Elt F) VO0_2.junk (kernelRun0_C c i arg2 harg2 arg3 harg3 arg4 harg4 arg5 harg5 hc0 hc1 x0 x1 xs0).1)

theorem scover0_C_0 (c : Dev nD) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : ¬cond0_0 i) (hc1 : cond0_1 i) (x0 x1 : Vec F S4x512x3 .f32) (xs0 : Vec F S4x512 .f32) (y : S4x512.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S4x512.size (by sl_kernel_rfl) y

/-- What the point leaves in the scratch where j = 15. -/
def sout0_C_0 (c : Dev nD) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : ¬cond0_0 i) (hc1 : cond0_1 i) (x0 x1 : Vec F S4x512x3 .f32) (xs0 : Vec F S4x512 .f32) : Vec F S4x512 .f32 :=
  VS0_0.read (Elt F) (VS0_0.writes (Elt F) VS0_0.junk (kernelRun0_C c i arg2 harg2 arg3 harg3 arg4 harg4 arg5 harg5 hc0 hc1 x0 x1 xs0).2.1)

/-! ## What the buffers hold after each point -/

/-- After the point at position `n`: the output window's staging buffer and the scratch (a pair), by the case the point is in,
    the scratch the body reads being what position `n - 1` left. -/
def outsAt0 (c : Dev nD) : (n : ℕ) → n < cfg0.N → Vec F S4x512 .f32 × Vec F S4x512 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 16 = 0 then
      if h1 : (n + 1) % 16 = 15 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 16 = 15 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2)

/-- At a point with j = 0. -/
theorem outsAt0_A (c : Dev nD) (t : Fin cfg0.N) (h0 : t.val % 16 = 0) (h1 : ¬t.val % 16 = 15) :
    outsAt0 V c t.val t.isLt = (out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t), sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

/-- At a point with 0 < j < 15: over what the point before left. -/
theorem outsAt0_B (c : Dev nD) (t : Fin cfg0.N) (h0 : ¬t.val % 16 = 0) (h1 : ¬t.val % 16 = 15) :
    outsAt0 V c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a point with j = 15: over what the point before left. -/
theorem outsAt0_C (c : Dev nD) (t : Fin cfg0.N) (h0 : ¬t.val % 16 = 0) (h1 : t.val % 16 = 15) :
    outsAt0 V c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- Before position `n`: at the first point the class's invariant (every scoped buffer at anything); afterwards the scratch at
    what the point before left, the other pass's buffers at anything, the generator register at some state. -/
def PhiS0 (c : Dev nD) : (n : ℕ) → n ≤ cfg0.N → sProp 𝕄
  | 0, _ => Pipeline.ΦA spec0 c
  | n + 1, hn => iprop((owns (c : Thread nD τ) scM0_0 fullShare ((outsAt0 V c n hn).2) ∗ restS0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop((owns (c : Thread nD τ) scM0_0 fullShare ((outsAt0 V c n hn).2) ∗ restS0 c) ∗ (∃ r, prngReg c r)) := rfl

theorem PhiS0_pos (c : Dev nD) (n : ℕ) (h : n ≤ cfg0.N) (hz : n ≠ 0) :
    PhiS0 V c n h = iprop((owns (c : Thread nD τ) scM0_0 fullShare ((outsAt0 V c (n - 1) (by omega)).2) ∗ restS0 c) ∗ (∃ r, prngReg c r)) := by
  cases n with
  | zero => exact absurd rfl hz
  | succ n => rfl

/-! ## The proof data -/

/-- Region 0's proof data on core `c`: the arrays as the region finds them; after the body each input's buffer at its block,
    the output's at `outsAt0`'s first component; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' memrefs hold their blocks; the closed forms say which case the point is in; the invariant
    hands the body the scratch at what the point before left (at anything at the first point) and takes it back at this point's
    contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 256 := lt_of_lt_of_eq t.isLt (show cfg0.N = 256 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val % 16 = 0
  · have h1 : ¬t.val % 16 = 15 := by omega
    rw [Dat.leavesExact_idle (dat0 V c) 2 t (idleAt0_2_A t ((hcond0_0 t).mpr h0) (fun h => h1 ((hcond0_1 t).mp h))) (noFlush0_2_A t ((hcond0_0 t).mpr h0) (fun h => h1 ((hcond0_1 t).mp h)))]
    rw [outsAt0_A V c t h0 h1]
    unfold sout0_A_0; (try dsimp only)
    by_cases hz : t.val = 0
    · rw [PhiS0_castSucc V c t, PhiS0_zero V c _ _ hz, PhiA0_eq]
      iintro ⟨⟨⟨HS0, Hrest⟩, Hg⟩, Ho, ⟨%d0, H0⟩, ⟨%d1, H1⟩, ⟨%d2, H2⟩⟩
      iapply ((kernelRun0_A c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg Hrest]
      · isplitl [HS0 Hrest]
        · isplitl [HS0]
          · unfold owns; iexists _; isplitr
            swap; · iexact HS0
            ipureintro; exact View.read_writes_of_cover _ _ _ _ _ (scover0_A_0 c _ _ _ _ _ _ _ _ _ _ _ _ _)
          iexact Hrest
        iexact Hg
      isplitl [Ho]; · iexact Ho
      isplitl [H0]; · iexact H0
      isplitl [H1]; · iexact H1
      iexists _; iexact H2
    · rw [PhiS0_castSucc V c t, PhiS0_pos V c _ _ hz]
      iintro ⟨⟨⟨HS0, Hrest⟩, Hg⟩, Ho, ⟨%d0, H0⟩, ⟨%d1, H1⟩, ⟨%d2, H2⟩⟩
      iapply ((kernelRun0_A c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hg Hrest]
      · isplitl [HS0 Hrest]
        · isplitl [HS0]
          · unfold owns; iexists _; isplitr
            swap; · iexact HS0
            ipureintro; exact View.read_writes_of_cover _ _ _ _ _ (scover0_A_0 c _ _ _ _ _ _ _ _ _ _ _ _ _)
          iexact Hrest
        iexact Hg
      isplitl [Ho]; · iexact Ho
      isplitl [H0]; · iexact H0
      isplitl [H1]; · iexact H1
      iexists _; iexact H2
  · have hz : t.val ≠ 0 := fun h => h0 (by rw [h])
    by_cases h1 : t.val % 16 = 15
    · rw [show (dat0 V c).leavesExact 2 t = owns (c : Thread nD τ) (ms0_2 t) fullShare ((dat0 V c).after 2 t) from by
        unfold Dat.leavesExact; rw [liveAt0_2_C t (fun h => h0 ((hcond0_0 t).mp h)) ((hcond0_1 t).mpr h1)], after0_2]
      rw [outsAt0_C V c t h0 h1]
      unfold out0_C_2 sout0_C_0; (try dsimp only)
      rw [PhiS0_castSucc V c t, PhiS0_pos V c _ _ hz]
      iintro ⟨⟨⟨HS0, Hrest⟩, Hg⟩, Ho, ⟨%d0, H0⟩, ⟨%d1, H1⟩, ⟨%d2, H2⟩⟩
      iapply ((kernelRun0_C c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hg Hrest]
      · isplitl [HS0 Hrest]
        · isplitl [HS0]
          · unfold owns; iexists _; isplitr
            swap; · iexact HS0
            ipureintro; exact View.read_writes_of_cover _ _ _ _ _ (scover0_C_0 c _ _ _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _)
    · rw [Dat.leavesExact_idle (dat0 V c) 2 t (idleAt0_2_B t (fun h => h0 ((hcond0_0 t).mp h)) (fun h => h1 ((hcond0_1 t).mp h))) (noFlush0_2_B t (fun h => h0 ((hcond0_0 t).mp h)) (fun h => h1 ((hcond0_1 t).mp h)))]
      rw [outsAt0_B V c t h0 h1]
      unfold sout0_B_0; (try dsimp only)
      rw [PhiS0_castSucc V c t, PhiS0_pos V c _ _ hz]
      iintro ⟨⟨⟨HS0, Hrest⟩, Hg⟩, Ho, ⟨%d0, H0⟩, ⟨%d1, H1⟩, ⟨%d2, H2⟩⟩
      iapply ((kernelRun0_B c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg Hrest]
      · isplitl [HS0 Hrest]
        · isplitl [HS0]
          · unfold owns; iexists _; isplitr
            swap; · iexact HS0
            ipureintro; exact View.read_writes_of_cover _ _ _ _ _ (scover0_B_0 c _ _ _ _ _ _ _ _ _ _ _ _ _ _)
          iexact Hrest
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point the invariant gives the class's back: the scratch's named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, Hrest⟩, Hg⟩
  isplitl [HS0 Hrest]
  · isplitl [HS0]
    · iexists _; iexact HS0
    iexact Hrest
  iexact Hg

theorem hout0 (c : Dev nD) : (dat0 V c).Φ (Fin.last cfg0.N) ⊢ Pipeline.ΦA spec0 c :=
  Phi_out0 V c _ (by rw [Fin.val_last]; have : cfg0.N = 256 := N_0; omega)

end Cert.KernelIdeal.Fr

end
-- ==== Proof.KI.Runs1.lean ====
/- Region 1 (the pass that takes, for every point of the second cloud, the least squared distance to the first cloud):
   what its three control cases share. The grid point is (i, j): i picks the block of 512 points the result is for,
   j the block of 512 points of the other cloud the minimum runs over; the body resets its running minimum when j = 0,
   lowers it by the block's column minima at every j, and copies it out when j = 15. Here: the two conditions in closed form
   over the 256 points, where the output window is idle and where it is written back, the names of the staging
   and scratch memrefs, and the region invariant with the scratch split off. -/
import proofs.«116237_j481036337470_1_alg».proof.Proof.Gen.KernelIdeal.Launch
import proofs.«116237_j481036337470_1_alg».proof.Proof.Gen.KernelIdeal.Skeleton
import proofs.«116237_j481036337470_1_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the buffers' contents when the region is entered: a parameter, fixed by the launch
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions -/

/-- "j = 0", as the body computes it: the running minimum is reset. -/
abbrev cond1_0 (i : grid1.Coords) : Prop := (Scalar.cmpi .ne (Scalar.extui (Scalar.cmpi .eq (BitVec.ofNat 32 (i 1).val) 0#32)) 0#32) = 1#1
/-- It holds at the points ≡ 0 (mod 16). -/
theorem hcond1_0 : ∀ t : Fin cfg1.N, cond1_0 (grid1.coords t) ↔ t.val % 16 = 0 :=
  (by decide +kernel : ∀ t : Fin grid1.N, cond1_0 (grid1.coords t) ↔ t.val % 16 = 0)

/-- "j = 15", as the body computes it: the running minimum is copied out. -/
abbrev cond1_1 (i : grid1.Coords) : Prop := k1_cond2 i = 1#1
/-- It holds at the points ≡ 15 (mod 16). -/
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
/-- Where j = 0 the output window is idle and not written back. -/
theorem idleAt1_2_A : ∀ t : Fin cfg1.N, cond1_0 (grid1.coords t) → ¬cond1_1 (grid1.coords t) → cfg1.idle 2 (grid1.coords t) = true := by decide +kernel
theorem noFlush1_2_A : ∀ t : Fin cfg1.N, cond1_0 (grid1.coords t) → ¬cond1_1 (grid1.coords t) → (cfg1.win 2).flush t = false := by decide +kernel
/-- Where 0 < j < 15 likewise. -/
theorem idleAt1_2_B : ∀ t : Fin cfg1.N, ¬cond1_0 (grid1.coords t) → ¬cond1_1 (grid1.coords t) → cfg1.idle 2 (grid1.coords t) = true := by decide +kernel
theorem noFlush1_2_B : ∀ t : Fin cfg1.N, ¬cond1_0 (grid1.coords t) → ¬cond1_1 (grid1.coords t) → (cfg1.win 2).flush t = false := by decide +kernel
/-- Where j = 15 the body stores into it. -/
theorem liveAt1_2_C : ∀ t : Fin cfg1.N, ¬cond1_0 (grid1.coords t) → cond1_1 (grid1.coords t) → cfg1.idle 2 (grid1.coords t) = false := by decide +kernel

/-! ## The memrefs the body is called with -/

/-- One staging buffer of the output window, through which its contents are stated. -/
abbrev VO1_2 : View sig .tc .vmem S4x512 .f32 := (Memref.whole cc1_stg2_0 : Memref sig .tc .vmem S4x512 .f32).view
abbrev ms1_0 (t : Fin cfg1.N) : Memref sig .tc .vmem S4x512x3 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4x512x3 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S4x512 .f32 := win1_2.stage (cfg1.slots t 2)
abbrev hs1_2 (t : Fin cfg1.N) : (ms1_2 t).IsWhole := hstage1_2 ((cfg1.slots t 2).cast nbuf1_2)
/-- The running minimum's buffer. -/
abbrev scM1_0 : Memref sig .tc .vmem S4x512 .f32 := Memref.whole cc1_scratch0
abbrev VS1_0 : View sig .tc .vmem S4x512 .f32 := scM1_0.view

/-! ## The invariant, the running minimum split off -/

/-- The scoped buffers of the other pass, each whole at some contents: carried unopened. -/
def restS1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f))

/-- The class's invariant with the running minimum's buffer as a memref owned at some contents. -/
theorem scopedS1_eq (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f) ∗ restS1 c) := by
  unfold restS1
  exact Pipeline.scopedRest_eq_of_list spec1 c [cc1_scratch0, cc0_stg0_0, cc0_stg0_1, cc0_stg1_0, cc0_stg1_1, cc0_stg2_0, cc0_stg2_1, cc0_scratch0] (by decide) (by decide)

theorem PhiA1_eq (c : Dev nD) :
    (Pipeline.ΦA spec1 c : sProp 𝕄)
      = iprop(((∃ d, owns (c : Thread nD τ) scM1_0 fullShare d) ∗ restS1 c) ∗ (∃ r, prngReg c r)) := by
  unfold Pipeline.ΦA; rw [scopedS1_eq]; simp only [scM1_0, owns_whole]; rfl

end Cert.KernelIdeal.Fr

end
-- ==== Proof.KI.Run1A.lean ====
/- Region 1, the case j = 0: the running minimum is reset to +∞ and then lowered by the block's column minima; the output
   window is left as it was. The body's run on whole memrefs; the pieces the scratch ends with are what the run finds. -/
import proofs.«116237_j481036337470_1_alg».proof.Proof.KI.Runs1

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body where j = 0, on whole memrefs: the inputs at their contents, the output at contents handed back untouched,
    the scratch at anything; it ends with the scratch's pieces written. -/
noncomputable def kernelRun1_A (c : Dev nD) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : cond1_0 i) (hc1 : ¬cond1_1 i)
    (x0 x1 : Vec F S4x512x3 .f32) :
    Σ' (L2 : List (View.Piece (Elt F) S4x512 .f32)), { LS0 : List (View.Piece (Elt F) S4x512 .f32) //
      ∀ (xi2 : Vec F S4x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__b2a_kernel i arg2 harg2 arg3 harg3 arg4 harg4 arg5 harg5) K } := by
  refine ⟨[], ?_, fun xi2 E K => ?run⟩
  case run =>
    simp only [cc1__b2a_kernel_eq_skeleton]; unfold cc1__b2a_kernel_skel
    simp only [k1_part1_eq_skeleton]
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Fr

end
-- ==== Proof.KI.Run1B.lean ====
/- Region 1, the case 0 < j < 15: the running minimum the point before left is lowered by the block's column minima; the
   output window is left as it was. -/
import proofs.«116237_j481036337470_1_alg».proof.Proof.KI.Run1A

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body where 0 < j < 15, on whole memrefs: the scratch at what the point before left (`xs0`). -/
noncomputable def kernelRun1_B (c : Dev nD) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : ¬cond1_0 i) (hc1 : ¬cond1_1 i)
    (x0 x1 : Vec F S4x512x3 .f32) (xs0 : Vec F S4x512 .f32) :
    Σ' (L2 : List (View.Piece (Elt F) S4x512 .f32)), { LS0 : List (View.Piece (Elt F) S4x512 .f32) //
      ∀ (xi2 : Vec F S4x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__b2a_kernel i arg2 harg2 arg3 harg3 arg4 harg4 arg5 harg5) K } := by
  refine ⟨[], ?_, fun xi2 E K => ?run⟩
  case run =>
    simp only [cc1__b2a_kernel_eq_skeleton]; unfold cc1__b2a_kernel_skel
    simp only [k1_part1_eq_skeleton]
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Fr

end
-- ==== Proof.KI.Run1C.lean ====
/- Region 1, the case j = 15: the running minimum the point before left is lowered by the last block's column minima and
   then copied into the output window. -/
import proofs.«116237_j481036337470_1_alg».proof.Proof.KI.Run1B

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body where j = 15, on whole memrefs: the scratch at what the point before left (`xs0`), the output at anything;
    both end with their pieces written. -/
noncomputable def kernelRun1_C (c : Dev nD) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : ¬cond1_0 i) (hc1 : cond1_1 i)
    (x0 x1 : Vec F S4x512x3 .f32) (xs0 : Vec F S4x512 .f32) :
    Σ' (L2 : List (View.Piece (Elt F) S4x512 .f32)), { LS0 : List (View.Piece (Elt F) S4x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__b2a_kernel i arg2 harg2 arg3 harg3 arg4 harg4 arg5 harg5) K } := by
  refine ⟨?_, ?_, fun E K => ?run⟩
  case run =>
    simp only [cc1__b2a_kernel_eq_skeleton]; unfold cc1__b2a_kernel_skel
    simp only [k1_part1_eq_skeleton]
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Fr

end
-- ==== Proof.KI.Frame1.lean ====
/- Region 1: what the running minimum and the output window hold after each grid point, the region invariant that carries
   the running minimum from one point to the next, the proof data, and the body obligation at every point. After the point
   (i, j) the scratch holds what the case's run left: at j = 0 the reset value lowered by block 0's column minima, at j > 0
   what the point before left lowered by block j's; the output window is stored into only at j = 15. -/
import proofs.«116237_j481036337470_1_alg».proof.Proof.KI.Run1C

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- Where j = 0 nothing is stored into the output window: a placeholder nothing consults. -/
def out1_A_2 (c : Dev nD) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : cond1_0 i) (hc1 : ¬cond1_1 i) (x0 x1 : Vec F S4x512x3 .f32) : Vec F S4x512 .f32 :=
  VO1_2.read (Elt F) (VO1_2.writes (Elt F) VO1_2.junk (kernelRun1_A c i arg2 harg2 arg3 harg3 arg4 harg4 arg5 harg5 hc0 hc1 x0 x1).1)

/-- The scratch's pieces where j = 0 cover it. -/
theorem scover1_A_0 (c : Dev nD) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : cond1_0 i) (hc1 : ¬cond1_1 i) (x0 x1 : Vec F S4x512x3 .f32) (y : S4x512.Idx) :
    ∃ pc ∈ (kernelRun1_A c i arg2 harg2 arg3 harg3 arg4 harg4 arg5 harg5 hc0 hc1 x0 x1).2.1, y ∈ pc.1.set :=
  View.cover_of_tiledL (kernelRun1_A c i arg2 harg2 arg3 harg3 arg4 harg4 arg5 harg5 hc0 hc1 x0 x1).2.1 S4x512.size (by sl_kernel_rfl) y

/-- What the point leaves in the scratch where j = 0. -/
def sout1_A_0 (c : Dev nD) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : cond1_0 i) (hc1 : ¬cond1_1 i) (x0 x1 : Vec F S4x512x3 .f32) : Vec F S4x512 .f32 :=
  VS1_0.read (Elt F) (VS1_0.writes (Elt F) VS1_0.junk (kernelRun1_A c i arg2 harg2 arg3 harg3 arg4 harg4 arg5 harg5 hc0 hc1 x0 x1).2.1)

def out1_B_2 (c : Dev nD) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : ¬cond1_0 i) (hc1 : ¬cond1_1 i) (x0 x1 : Vec F S4x512x3 .f32) (xs0 : Vec F S4x512 .f32) : Vec F S4x512 .f32 :=
  VO1_2.read (Elt F) (VO1_2.writes (Elt F) VO1_2.junk (kernelRun1_B c i arg2 harg2 arg3 harg3 arg4 harg4 arg5 harg5 hc0 hc1 x0 x1 xs0).1)

theorem scover1_B_0 (c : Dev nD) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : ¬cond1_0 i) (hc1 : ¬cond1_1 i) (x0 x1 : Vec F S4x512x3 .f32) (xs0 : Vec F S4x512 .f32) (y : S4x512.Idx) :
    ∃ pc ∈ (kernelRun1_B c i arg2 harg2 arg3 harg3 arg4 harg4 arg5 harg5 hc0 hc1 x0 x1 xs0).2.1, y ∈ pc.1.set :=
  View.cover_of_tiledL (kernelRun1_B c i arg2 harg2 arg3 harg3 arg4 harg4 arg5 harg5 hc0 hc1 x0 x1 xs0).2.1 S4x512.size (by sl_kernel_rfl) y

/-- What the point leaves in the scratch where 0 < j < 15. -/
def sout1_B_0 (c : Dev nD) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : ¬cond1_0 i) (hc1 : ¬cond1_1 i) (x0 x1 : Vec F S4x512x3 .f32) (xs0 : Vec F S4x512 .f32) : Vec F S4x512 .f32 :=
  VS1_0.read (Elt F) (VS1_0.writes (Elt F) VS1_0.junk (kernelRun1_B c i arg2 harg2 arg3 harg3 arg4 harg4 arg5 harg5 hc0 hc1 x0 x1 xs0).2.1)

/-- The output window's pieces where j = 15 cover it. -/
theorem cover1_C_2 (c : Dev nD) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : ¬cond1_0 i) (hc1 : cond1_1 i) (x0 x1 : Vec F S4x512x3 .f32) (xs0 : Vec F S4x512 .f32) (y : S4x512.Idx) :
    ∃ pc ∈ (kernelRun1_C c i arg2 harg2 arg3 harg3 arg4 harg4 arg5 harg5 hc0 hc1 x0 x1 xs0).1, y ∈ pc.1.set :=
  View.cover_of_tiledL (kernelRun1_C c i arg2 harg2 arg3 harg3 arg4 harg4 arg5 harg5 hc0 hc1 x0 x1 xs0).1 S4x512.size (by sl_kernel_rfl) y

/-- What the point leaves in the output window where j = 15. -/
def out1_C_2 (c : Dev nD) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : ¬cond1_0 i) (hc1 : cond1_1 i) (x0 x1 : Vec F S4x512x3 .f32) (xs0 : Vec F S4x512 .f32) : Vec F S4x512 .f32 :=
  VO1_2.read (Elt F) (VO1_2.writes (Elt F) VO1_2.junk (kernelRun1_C c i arg2 harg2 arg3 harg3 arg4 harg4 arg5 harg5 hc0 hc1 x0 x1 xs0).1)

theorem scover1_C_0 (c : Dev nD) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : ¬cond1_0 i) (hc1 : cond1_1 i) (x0 x1 : Vec F S4x512x3 .f32) (xs0 : Vec F S4x512 .f32) (y : S4x512.Idx) :
    ∃ pc ∈ (kernelRun1_C c i arg2 harg2 arg3 harg3 arg4 harg4 arg5 harg5 hc0 hc1 x0 x1 xs0).2.1, y ∈ pc.1.set :=
  View.cover_of_tiledL (kernelRun1_C c i arg2 harg2 arg3 harg3 arg4 harg4 arg5 harg5 hc0 hc1 x0 x1 xs0).2.1 S4x512.size (by sl_kernel_rfl) y

/-- What the point leaves in the scratch where j = 15. -/
def sout1_C_0 (c : Dev nD) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : ¬cond1_0 i) (hc1 : cond1_1 i) (x0 x1 : Vec F S4x512x3 .f32) (xs0 : Vec F S4x512 .f32) : Vec F S4x512 .f32 :=
  VS1_0.read (Elt F) (VS1_0.writes (Elt F) VS1_0.junk (kernelRun1_C c i arg2 harg2 arg3 harg3 arg4 harg4 arg5 harg5 hc0 hc1 x0 x1 xs0).2.1)

/-! ## What the buffers hold after each point -/

/-- After the point at position `n`: the output window's staging buffer and the scratch (a pair), by the case the point is in,
    the scratch the body reads being what position `n - 1` left. -/
def outsAt1 (c : Dev nD) : (n : ℕ) → n < cfg1.N → Vec F S4x512 .f32 × Vec F S4x512 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 16 = 0 then
      if h1 : (n + 1) % 16 = 15 then
        False.elim (by omega)
      else
        (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 16 = 15 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

/-- At a point with j = 0. -/
theorem outsAt1_A (c : Dev nD) (t : Fin cfg1.N) (h0 : t.val % 16 = 0) (h1 : ¬t.val % 16 = 15) :
    outsAt1 V c t.val t.isLt = (out1_A_2 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t), sout1_A_0 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

/-- At a point with 0 < j < 15: over what the point before left. -/
theorem outsAt1_B (c : Dev nD) (t : Fin cfg1.N) (h0 : ¬t.val % 16 = 0) (h1 : ¬t.val % 16 = 15) :
    outsAt1 V c t.val t.isLt = (out1_B_2 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a point with j = 15: over what the point before left. -/
theorem outsAt1_C (c : Dev nD) (t : Fin cfg1.N) (h0 : ¬t.val % 16 = 0) (h1 : t.val % 16 = 15) :
    outsAt1 V c t.val t.isLt = (out1_C_2 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- Before position `n`: at the first point the class's invariant (every scoped buffer at anything); afterwards the scratch at
    what the point before left, the other pass's buffers at anything, the generator register at some state. -/
def PhiS1 (c : Dev nD) : (n : ℕ) → n ≤ cfg1.N → sProp 𝕄
  | 0, _ => Pipeline.ΦA spec1 c
  | n + 1, hn => iprop((owns (c : Thread nD τ) scM1_0 fullShare ((outsAt1 V c n hn).2) ∗ restS1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop((owns (c : Thread nD τ) scM1_0 fullShare ((outsAt1 V c n hn).2) ∗ restS1 c) ∗ (∃ r, prngReg c r)) := rfl

theorem PhiS1_pos (c : Dev nD) (n : ℕ) (h : n ≤ cfg1.N) (hz : n ≠ 0) :
    PhiS1 V c n h = iprop((owns (c : Thread nD τ) scM1_0 fullShare ((outsAt1 V c (n - 1) (by omega)).2) ∗ restS1 c) ∗ (∃ r, prngReg c r)) := by
  cases n with
  | zero => exact absurd rfl hz
  | succ n => rfl

/-! ## The proof data -/

/-- Region 1's proof data on core `c`: the arrays as the region finds them; after the body each input's buffer at its block,
    the output's at `outsAt1`'s first component; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the inputs' memrefs hold their blocks; the closed forms say which case the point is in; the invariant
    hands the body the scratch at what the point before left (at anything at the first point) and takes it back at this point's
    contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 256 := lt_of_lt_of_eq t.isLt (show cfg1.N = 256 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h0 : t.val % 16 = 0
  · have h1 : ¬t.val % 16 = 15 := by omega
    rw [Dat.leavesExact_idle (dat1 V c) 2 t (idleAt1_2_A t ((hcond1_0 t).mpr h0) (fun h => h1 ((hcond1_1 t).mp h))) (noFlush1_2_A t ((hcond1_0 t).mpr h0) (fun h => h1 ((hcond1_1 t).mp h)))]
    rw [outsAt1_A V c t h0 h1]
    unfold sout1_A_0; (try dsimp only)
    by_cases hz : t.val = 0
    · rw [PhiS1_castSucc V c t, PhiS1_zero V c _ _ hz, PhiA1_eq]
      iintro ⟨⟨⟨HS0, Hrest⟩, Hg⟩, Ho, ⟨%d0, H0⟩, ⟨%d1, H1⟩, ⟨%d2, H2⟩⟩
      iapply ((kernelRun1_A c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg Hrest]
      · isplitl [HS0 Hrest]
        · isplitl [HS0]
          · unfold owns; iexists _; isplitr
            swap; · iexact HS0
            ipureintro; exact View.read_writes_of_cover _ _ _ _ _ (scover1_A_0 c _ _ _ _ _ _ _ _ _ _ _ _ _)
          iexact Hrest
        iexact Hg
      isplitl [Ho]; · iexact Ho
      isplitl [H0]; · iexact H0
      isplitl [H1]; · iexact H1
      iexists _; iexact H2
    · rw [PhiS1_castSucc V c t, PhiS1_pos V c _ _ hz]
      iintro ⟨⟨⟨HS0, Hrest⟩, Hg⟩, Ho, ⟨%d0, H0⟩, ⟨%d1, H1⟩, ⟨%d2, H2⟩⟩
      iapply ((kernelRun1_A c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hg Hrest]
      · isplitl [HS0 Hrest]
        · isplitl [HS0]
          · unfold owns; iexists _; isplitr
            swap; · iexact HS0
            ipureintro; exact View.read_writes_of_cover _ _ _ _ _ (scover1_A_0 c _ _ _ _ _ _ _ _ _ _ _ _ _)
          iexact Hrest
        iexact Hg
      isplitl [Ho]; · iexact Ho
      isplitl [H0]; · iexact H0
      isplitl [H1]; · iexact H1
      iexists _; iexact H2
  · have hz : t.val ≠ 0 := fun h => h0 (by rw [h])
    by_cases h1 : t.val % 16 = 15
    · rw [show (dat1 V c).leavesExact 2 t = owns (c : Thread nD τ) (ms1_2 t) fullShare ((dat1 V c).after 2 t) from by
        unfold Dat.leavesExact; rw [liveAt1_2_C t (fun h => h0 ((hcond1_0 t).mp h)) ((hcond1_1 t).mpr h1)], after1_2]
      rw [outsAt1_C V c t h0 h1]
      unfold out1_C_2 sout1_C_0; (try dsimp only)
      rw [PhiS1_castSucc V c t, PhiS1_pos V c _ _ hz]
      iintro ⟨⟨⟨HS0, Hrest⟩, Hg⟩, Ho, ⟨%d0, H0⟩, ⟨%d1, H1⟩, ⟨%d2, H2⟩⟩
      iapply ((kernelRun1_C c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hg Hrest]
      · isplitl [HS0 Hrest]
        · isplitl [HS0]
          · unfold owns; iexists _; isplitr
            swap; · iexact HS0
            ipureintro; exact View.read_writes_of_cover _ _ _ _ _ (scover1_C_0 c _ _ _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C_2 c _ _ _ _ _ _ _ _ _ _ _ _ _ _)
    · rw [Dat.leavesExact_idle (dat1 V c) 2 t (idleAt1_2_B t (fun h => h0 ((hcond1_0 t).mp h)) (fun h => h1 ((hcond1_1 t).mp h))) (noFlush1_2_B t (fun h => h0 ((hcond1_0 t).mp h)) (fun h => h1 ((hcond1_1 t).mp h)))]
      rw [outsAt1_B V c t h0 h1]
      unfold sout1_B_0; (try dsimp only)
      rw [PhiS1_castSucc V c t, PhiS1_pos V c _ _ hz]
      iintro ⟨⟨⟨HS0, Hrest⟩, Hg⟩, Ho, ⟨%d0, H0⟩, ⟨%d1, H1⟩, ⟨%d2, H2⟩⟩
      iapply ((kernelRun1_B c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg Hrest]
      · isplitl [HS0 Hrest]
        · isplitl [HS0]
          · unfold owns; iexists _; isplitr
            swap; · iexact HS0
            ipureintro; exact View.read_writes_of_cover _ _ _ _ _ (scover1_B_0 c _ _ _ _ _ _ _ _ _ _ _ _ _ _)
          iexact Hrest
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives the class's back: the scratch's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, Hrest⟩, Hg⟩
  isplitl [HS0 Hrest]
  · isplitl [HS0]
    · iexists _; iexact HS0
    iexact Hrest
  iexact Hg

theorem hout1 (c : Dev nD) : (dat1 V c).Φ (Fin.last cfg1.N) ⊢ Pipeline.ΦA spec1 c :=
  Phi_out1 V c _ (by rw [Fin.val_last]; have : cfg1.N = 256 := N_1; omega)

end Cert.KernelIdeal.Fr

end
-- ==== Proof.KI.Launch.lean ====
/- The whole program's run: the buffers' contents at each boundary between @main's three items (region 0, region 1, the
   closing host operations that average the two arrays of minima and add the averages), each region as a segment over its
   proof data, the host operations as a segment, and the launch. Its post names every unscoped buffer's final contents:
   the frame and the value are both read off it. -/
import proofs.«116237_j481036337470_1_alg».proof.Proof.KI.Frame0
import proofs.«116237_j481036337470_1_alg».proof.Proof.KI.Frame1

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch (region 0's entry: no host operation comes before it). -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

/-- At region 0's exit: its arrays at what the pipeline leaves (the inputs as entered, the output's write-backs folded),
    every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- The same read at the TensorCore's references. -/
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- At region 1's exit: its arrays at what the pipeline leaves (the inputs as entered, the output's write-backs folded),
    every other buffer as entered. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
/-- The same read at the TensorCore's references. -/
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-- After the closing host operations. -/
abbrev W3 : Dev nD → Valuation τ sig (Elt F) := fun c => StableHlo.after hostOps2 (W2 m ρ c)

/-! ## The proof data family and the thread state -/

abbrev adm : (p : Fin 2) → (pcfgs (F := F) p).Adm := fun p => (cfgs p).toPCfg_adm
/-- Each region's proof data at its entry contents: a literal match on the region's index. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)

theorem hostOps2_fresh' : (hostOps2 : List (HloOp τ sig (Elt F))).Forall fun op => op.fresh = ∅ := by
  simp only [List.Forall]; repeat' constructor

/-- The closing host operations as a segment, from region 1's exit contents. -/
abbrev hseg2 : Pipeline.HostSeg (Name := ℕ) (U := UR sig nD τ) (pcfgs (F := F)) defs₀ 𝒱₀ L lv :=
  Pipeline.HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh') op h) (W2 m ρ) R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the `owes`. -/
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- Region 0 as a segment: entered from every unscoped buffer at `W0`, left at `W1`. Its arrays are split out of
    the unscoped buffers and put back at what the write-backs leave; the generator register goes into the invariant and
    comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin0 (V0 m ρ) c)
    unfold Pipeline.ΦA
    iintro ⟨Hp, -, Hr⟩
    isplitl [Hr]; · iexact Hr
    iexact Hp
  hout c := by
    rw [Pipeline.ownSems0_none]
    refine (hout0 (V0 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered from every unscoped buffer at `W1`, left at `W2`. Its arrays are split out of
    the unscoped buffers and put back at what the write-backs leave; the generator register goes into the invariant and
    comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (V1 m ρ) c)
    unfold Pipeline.ΦA
    iintro ⟨Hp, -, Hr⟩
    isplitl [Hr]; · iexact Hr
    iexact Hp
  hout c := by
    rw [Pipeline.ownSems0_none]
    refine (hout1 (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ), .region (reg1 m ρ), .host (hseg2 m ρ) ]

theorem main_run (c : Dev nD) : main (F := F) c = Pipeline.Seg.run (segs m ρ) := (main_chain c).trans (by chain_rfl)

set_option backward.isDefEq.respectTransparency.types false in
/-- Every weakly fair execution of @main from memory `m` with zero counters terminates, nothing faulting, and every final
    state holds each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      show iprop(StableHlo.held (c : Thread nD τ) (Pipeline.ucRefs τ sig) (W3 m ρ c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

end Cert.KernelIdeal.Fr

end
-- ==== Proof.KI.Args.lean ====
/- The frame, read off the program's run: no item of @main writes an argument. The closing host operations write only
   their own results; each region reads an argument through an input window, whose array ends as it was entered. So at the
   last boundary each argument's buffer holds its launch contents, and the run's post gives the frame claim's. -/
import proofs.«116237_j481036337470_1_alg».proof.Proof.KI.Launch
import proofs.«116237_j481036337470_1_alg».proof.Proof.Gen.KernelIdeal.Regions

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Region 0 leaves the first cloud's array as launched, -/
theorem W1_main_arg0 (c : Dev nD) : W1 m ρ c (Proc.devRef .tc main_arg0) = m ((c : Thread nD τ).loc main_arg0) :=
  (W1_arr m ρ c 0).trans (((dat0 (V0 m ρ) c).arrAt_in 0 rfl _).trans (A_eq0 (V0 m ρ) c 0))
/-- and the second's; -/
theorem W1_main_arg1 (c : Dev nD) : W1 m ρ c (Proc.devRef .tc main_arg1) = m ((c : Thread nD τ).loc main_arg1) :=
  (W1_arr m ρ c 1).trans (((dat0 (V0 m ρ) c).arrAt_in 1 rfl _).trans (A_eq0 (V0 m ρ) c 1))
/-- so does region 1. -/
theorem W2_main_arg0 (c : Dev nD) : W2 m ρ c (Proc.devRef .tc main_arg0) = m ((c : Thread nD τ).loc main_arg0) :=
  (W2_arr m ρ c 0).trans ((((dat1 (V1 m ρ) c).arrAt_in 0 rfl _).trans (A_eq1 (V1 m ρ) c 0)).trans (W1_main_arg0 m ρ c))
theorem W2_main_arg1 (c : Dev nD) : W2 m ρ c (Proc.devRef .tc main_arg1) = m ((c : Thread nD τ).loc main_arg1) :=
  (W2_arr m ρ c 1).trans ((((dat1 (V1 m ρ) c).arrAt_in 1 rfl _).trans (A_eq1 (V1 m ρ) c 1)).trans (W1_main_arg1 m ρ c))

/-- The closing host operations write neither argument. -/
theorem W3_main_arg0 (c : Dev nD) : W3 m ρ c (Proc.devRef .tc main_arg0) = m ((c : Thread nD τ).loc main_arg0) :=
  (StableHlo.after_of_writes_sub hostOps2 _ hostOps2_writes (by decide : main_arg0 ∉ hostOps2_W)).trans (W2_main_arg0 m ρ c)
theorem W3_main_arg1 (c : Dev nD) : W3 m ρ c (Proc.devRef .tc main_arg1) = m ((c : Thread nD τ).loc main_arg1) :=
  (StableHlo.after_of_writes_sub hostOps2 _ hostOps2_writes (by decide : main_arg1 ∉ hostOps2_W)).trans (W2_main_arg1 m ρ c)

/-- THE FRAME: every weakly fair execution of @main terminates, nothing faulting, and both arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W3_main_arg0 m ρ c),
     (h c _ (mem_uc main_arg1 (by decide))).trans (W3_main_arg1 m ρ c)⟩) (run_all m ρ)

end Cert.KernelIdeal.Fr

end
-- ==== Proof.Spec.lean ====
/- The mathematics both programs compute, free of either program: for two clouds of points in batches of 4, the squared
   distance between a point of the first and a point of the second, written as |a|² + |b|² − 2 a·b over the extended reals
   exactly as the two programs group it; its least value over the second cloud for each point of the first, and over the
   first for each point of the second; and the law that a minimum over 8192 points is the running minimum of the minima
   over 16 consecutive blocks of 512 points, started from +∞. -/
import Idealize.ShloMosaic.PureOps.Ideal
import Idealize.ShloMosaic.PureOps.Ideal.Laws
import Idealize.ShloMosaic.Lib.ValueIdx
import Mathlib.Order.CompleteLattice.Finset
import Mathlib.Data.Finset.Lattice.Fold

noncomputable section

namespace Chamfer

open Idealize.ShloMosaic Idealize.ShloMosaic.ValueIdx

/-- The factor 2 as both programs spell it (never evaluated: it is the same word on both sides). -/
abbrev two : EReal := Ideal.ofBits .f32 0x40000000#32

/-- +∞ as both programs spell it is the top of the extended reals. -/
theorem top_word : Ideal.ofBits .f32 0x7F800000#32 = (⊤ : EReal) := by
  simp [Ideal.ofBits, Ideal.ieee]

/-- The squared distance between point `p` of cloud `a` and point `q` of cloud `b` in batch `n`, grouped as the programs
    group it: (|a|² + |b|²) − 2 · (a·b), each three-term sum associated to the left. Generic in the numbers of points, so
    that a block of 512 points and a whole cloud of 8192 are instances of one definition. -/
def sqd {P Q : ℕ} (a : (⟨3, ![4, P, 3]⟩ : Shape).Idx → EReal) (b : (⟨3, ![4, Q, 3]⟩ : Shape).Idx → EReal)
    (n : Fin 4) (p : Fin P) (q : Fin Q) : EReal :=
  (((a (ix3 n p 0) * a (ix3 n p 0) + a (ix3 n p 1) * a (ix3 n p 1)) + a (ix3 n p 2) * a (ix3 n p 2))
      + ((b (ix3 n q 0) * b (ix3 n q 0) + b (ix3 n q 1) * b (ix3 n q 1)) + b (ix3 n q 2) * b (ix3 n q 2)))
    - two * ((a (ix3 n p 0) * b (ix3 n q 0) + a (ix3 n p 1) * b (ix3 n q 1)) + a (ix3 n p 2) * b (ix3 n q 2))

/-- For point `p` of the first cloud, the least squared distance to a point of the second. -/
def minA {P Q : ℕ} (a : (⟨3, ![4, P, 3]⟩ : Shape).Idx → EReal) (b : (⟨3, ![4, Q, 3]⟩ : Shape).Idx → EReal)
    (n : Fin 4) (p : Fin P) : EReal :=
  Finset.univ.inf fun q : Fin Q => sqd a b n p q

/-- For point `q` of the second cloud, the least squared distance to a point of the first. -/
def minB {P Q : ℕ} (a : (⟨3, ![4, P, 3]⟩ : Shape).Idx → EReal) (b : (⟨3, ![4, Q, 3]⟩ : Shape).Idx → EReal)
    (n : Fin 4) (q : Fin Q) : EReal :=
  Finset.univ.inf fun p : Fin P => sqd a b n p q

/-- A fold of `min` from the word +∞ over a finite type is the infimum. -/
theorem fold_min_top {α : Type} [Fintype α] (g : α → EReal) :
    (Finset.univ : Finset α).fold min (Ideal.ofBits .f32 0x7F800000#32) g = Finset.univ.inf g := by
  rw [top_word]
  rfl

/-- The infimum of `f` over the first `k` of 8192 positions. -/
def infUpTo (f : Fin 8192 → EReal) (k : ℕ) : EReal :=
  (Finset.univ.filter fun q : Fin 8192 => q.val < k).inf f

theorem infUpTo_zero (f : Fin 8192 → EReal) : infUpTo f 0 = ⊤ := by
  simp [infUpTo]

/-- One more block of 512: the infimum so far, lowered by the block's infimum. -/
theorem infUpTo_step (f : Fin 8192 → EReal) (k : ℕ) (hk : k < 16) :
    infUpTo f (512 * (k + 1))
      = min (infUpTo f (512 * k)) (Finset.univ.inf fun r : Fin 512 => f ⟨512 * k + r.val, by omega⟩) := by
  unfold infUpTo
  apply le_antisymm
  · -- every position of either part lies below 512 * (k + 1)
    apply le_min
    · apply Finset.le_inf
      intro q hq
      apply Finset.inf_le
      simp only [Finset.mem_filter, Finset.mem_univ, true_and] at hq ⊢
      omega
    · apply Finset.le_inf
      intro r _
      apply Finset.inf_le
      simp only [Finset.mem_filter, Finset.mem_univ, true_and]
      have := r.isLt
      omega
  · -- a position below 512 * (k + 1) is below 512 * k or is 512 * k + r for its remainder r < 512
    apply Finset.le_inf
    intro q hq
    simp only [Finset.mem_filter, Finset.mem_univ, true_and] at hq
    by_cases h : q.val < 512 * k
    · exact min_le_of_left_le (Finset.inf_le (by simp [h]))
    · refine min_le_of_right_le ?_
      have h2 := Finset.inf_le (s := Finset.univ) (f := fun r : Fin 512 => f ⟨512 * k + r.val, by omega⟩)
        (Finset.mem_univ (⟨q.val - 512 * k, by omega⟩ : Fin 512))
      refine le_trans h2 (le_of_eq ?_)
      congr 1
      apply Fin.ext
      show 512 * k + (q.val - 512 * k) = q.val
      omega

theorem infUpTo_full (f : Fin 8192 → EReal) : infUpTo f 8192 = Finset.univ.inf f := by
  unfold infUpTo
  rw [Finset.filter_true_of_mem fun q _ => q.isLt]

end Chamfer

end
-- ==== Proof.KI.Pay.lean ====
/- What one grid point does to the running minimum, read at an index, at the extended reals: the reset value is +∞, and
   a step replaces the entry for point p by the smaller of it and the least squared distance from p to the 512 points of the
   other cloud's current block (in region 0 a minimum along the second block's points, in region 1 along the first's). -/
import proofs.«116237_j481036337470_1_alg».proof.Proof.Gen.KernelIdeal.Skeleton
import proofs.«116237_j481036337470_1_alg».proof.Proof.Spec
import Idealize.ShloMosaic.PureOps.Reduce
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Val

open Cert.KernelIdeal Cert.KernelIdeal.Gen Idealize.ShloMosaic Idealize.ShloMosaic.ValueIdx

/-! ## A minimum along one axis -/

/-- A minimum-reduction over one axis, read at the extended reals: the fold of `min` from the accumulator's value over that
    axis's coordinates. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- Along the last axis, the index over (n, p) with coordinate q is (n, p, q). -/
theorem lift0 (n : Fin 4) (p q : Fin 512) :
    reduces_S4x512x512_S4x512.lift (ix2 n p) q = ix3 n p q := by
  funext c
  apply Fin.ext
  match c with
  | ⟨0, _⟩ => rfl
  | ⟨1, _⟩ => rfl
  | ⟨2, _⟩ => rfl

/-- Along the middle axis, the index over (n, q) with coordinate p is (n, p, q). -/
theorem lift1 (n : Fin 4) (p q : Fin 512) :
    reduces_S4x512x512_S4x512_2.lift (ix2 n q) p = ix3 n p q := by
  funext c
  apply Fin.ext
  match c with
  | ⟨0, _⟩ => rfl
  | ⟨1, _⟩ => rfl
  | ⟨2, _⟩ => rfl

/-- The minimum from +∞ along the last axis of a [4, 512, 512] array is, at (n, p), the infimum over q of its entries (n, p, q). -/
theorem red0_apply (v : FVec Ideal S4x512x512 .f32) (n : Fin 4) (p : Fin 512) :
    multiReduction (F := Ideal) .minimumf [2] S4x512 v 0x7F800000#32 reduces_S4x512x512_S4x512 (.inl rfl) rfl (ix2 n p)
      = Finset.univ.inf fun q : Fin 512 => v (ix3 n p q) := by
  refine (multiReduction_minimumf_single v _ reduces_S4x512x512_S4x512 (.inl rfl) rfl (ix2 n p)).trans ?_
  refine (Chamfer.fold_min_top _).trans ?_
  show (Finset.univ : Finset (Fin 512)).inf (fun q => v (reduces_S4x512x512_S4x512.lift (ix2 n p) q)) = _
  exact congrArg _ (funext fun q => congrArg v (lift0 n p q))

/-- The minimum from +∞ along the middle axis is, at (n, q), the infimum over p of the entries (n, p, q). -/
theorem red1_apply (v : FVec Ideal S4x512x512 .f32) (n : Fin 4) (q : Fin 512) :
    multiReduction (F := Ideal) .minimumf [1] S4x512 v 0x7F800000#32 reduces_S4x512x512_S4x512_2 (.inl rfl) rfl (ix2 n q)
      = Finset.univ.inf fun p : Fin 512 => v (ix3 n p q) := by
  refine (multiReduction_minimumf_single v _ reduces_S4x512x512_S4x512_2 (.inl rfl) rfl (ix2 n q)).trans ?_
  refine (Chamfer.fold_min_top _).trans ?_
  show (Finset.univ : Finset (Fin 512)).inf (fun p => v (reduces_S4x512x512_S4x512_2.lift (ix2 n q) p)) = _
  exact congrArg _ (funext fun p => congrArg v (lift1 n p q))

/-! ## Layout operations of the two regions, read at coordinates -/

/-- Coordinate `c` of every point as a [4, 512] array: the slice of width one at offset `o = c` along the last axis, its unit
    axis dropped, reads at (n, p) the cloud at (n, p, c). -/
theorem slice_col (o : Nat) (x : Vec Ideal S4x512x3 .f32) (h : S4x512x3.Slices ![0, 0, o] S4x512x1)
    (h' : S4x512x1.ShapeCasts S4x512) (n : Fin 4) (p : Fin 512) (c : Fin 3) (hc : c.val = o) :
    shapeCast S4x512 (extractStridedSlice S4x512x1 ![0, 0, o] x h) h' (ix2 n p) = x (ix3 n p c) := by
  refine (shapeCast_apply _ h' (ix2 n p) (ix3 n p (0 : Fin 1)) ?_).trans ?_
  · rw [Shape.rowMajor_val_three, Shape.rowMajor_val_two]
    show (n.val * 512 + p.val) * 1 + 0 = n.val * 512 + p.val
    omega
  · refine extractStridedSlice_apply _ x h _ (ix3 n p c) fun a => ?_
    match a with
    | ⟨0, _⟩ => exact (Nat.zero_add _).symm
    | ⟨1, _⟩ => exact (Nat.zero_add _).symm
    | ⟨2, _⟩ =>
      show c.val = o + 0
      omega

/-- A [4, 512] array given a trailing unit axis and spread along it to [4, 512, 512] reads at (n, p, q) its entry (n, p). -/
theorem colb_apply (v : FVec Ideal S4x512 .f32) (n : Fin 4) (p q : Fin 512) :
    broadcastTo S4x512x512 (shapeCast S4x512x1 v shapeCasts_S4x512_S4x512x1) broadcasts_S4x512x1_S4x512x512 (ix3 n p q)
      = v (ix2 n p) := by
  refine (broadcastTo_apply _ broadcasts_S4x512x1_S4x512x512 (ix3 n p q) (ix3 n p (0 : Fin 1)) fun a => ?_).trans ?_
  · match a with
    | ⟨0, _⟩ => rfl
    | ⟨1, _⟩ => rfl
    | ⟨2, _⟩ => rfl
  · refine shapeCast_apply v shapeCasts_S4x512_S4x512x1 (ix3 n p (0 : Fin 1)) (ix2 n p) ?_
    rw [Shape.rowMajor_val_three, Shape.rowMajor_val_two]
    show n.val * 512 + p.val = (n.val * 512 + p.val) * 1 + 0
    omega

/-- A [4, 512] array given a middle unit axis and spread along it to [4, 512, 512] reads at (n, p, q) its entry (n, q). -/
theorem rowb_apply (v : FVec Ideal S4x512 .f32) (n : Fin 4) (p q : Fin 512) :
    broadcastTo S4x512x512 (shapeCast S4x1x512 v shapeCasts_S4x512_S4x1x512) broadcasts_S4x1x512_S4x512x512 (ix3 n p q)
      = v (ix2 n q) := by
  refine (broadcastTo_apply _ broadcasts_S4x1x512_S4x512x512 (ix3 n p q) (ix3 n (0 : Fin 1) q) fun a => ?_).trans ?_
  · match a with
    | ⟨0, _⟩ => rfl
    | ⟨1, _⟩ => rfl
    | ⟨2, _⟩ => rfl
  · refine shapeCast_apply v shapeCasts_S4x512_S4x1x512 (ix3 n (0 : Fin 1) q) (ix2 n q) ?_
    rw [Shape.rowMajor_val_three, Shape.rowMajor_val_two]
    show n.val * 512 + q.val = (n.val * 1 + 0) * 512 + q.val
    omega

/-! ## Region 0: the coordinate arrays, the products and the squared norms at an index -/

theorem k0_pay3_apply (x : Vec Ideal S4x512x3 .f32) (n : Fin 4) (p : Fin 512) :
    k0_pay3 (F := Ideal) x (ix2 n p) = x (ix3 n p 0) := by
  unfold k0_pay3
  exact slice_col 0 x _ _ n p 0 rfl

theorem k0_pay4_apply (x : Vec Ideal S4x512x3 .f32) (n : Fin 4) (p : Fin 512) :
    k0_pay4 (F := Ideal) x (ix2 n p) = x (ix3 n p 1) := by
  unfold k0_pay4
  exact slice_col 1 x _ _ n p 1 rfl

theorem k0_pay5_apply (x : Vec Ideal S4x512x3 .f32) (n : Fin 4) (p : Fin 512) :
    k0_pay5 (F := Ideal) x (ix2 n p) = x (ix3 n p 2) := by
  unfold k0_pay5
  exact slice_col 2 x _ _ n p 2 rfl

theorem k0_pay6_apply (x : Vec Ideal S4x512x3 .f32) (n : Fin 4) (p : Fin 512) :
    k0_pay6 (F := Ideal) x (ix2 n p) = x (ix3 n p 0) := by
  unfold k0_pay6
  exact slice_col 0 x _ _ n p 0 rfl

theorem k0_pay7_apply (x : Vec Ideal S4x512x3 .f32) (n : Fin 4) (p : Fin 512) :
    k0_pay7 (F := Ideal) x (ix2 n p) = x (ix3 n p 1) := by
  unfold k0_pay7
  exact slice_col 1 x _ _ n p 1 rfl

theorem k0_pay8_apply (x : Vec Ideal S4x512x3 .f32) (n : Fin 4) (p : Fin 512) :
    k0_pay8 (F := Ideal) x (ix2 n p) = x (ix3 n p 2) := by
  unfold k0_pay8
  exact slice_col 2 x _ _ n p 2 rfl

/-- The inner products a·b of point p of the first block with point q of the second. -/
theorem k0_pay9_apply (x0 x1 : Vec Ideal S4x512x3 .f32) (n : Fin 4) (p q : Fin 512) :
    k0_pay9 (F := Ideal) x0 x1 (ix3 n p q)
      = (x0 (ix3 n p 0) * x1 (ix3 n q 0) + x0 (ix3 n p 1) * x1 (ix3 n q 1)) + x0 (ix3 n p 2) * x1 (ix3 n q 2) := by
  unfold k0_pay9
  simp only [addf_apply, mulf_apply, colb_apply, rowb_apply, k0_pay3_apply, k0_pay4_apply, k0_pay5_apply,
    k0_pay6_apply, k0_pay7_apply, k0_pay8_apply]

/-- The sums |a|² + |b|² of point p of the first block and point q of the second. -/
theorem k0_pay10_apply (x0 x1 : Vec Ideal S4x512x3 .f32) (n : Fin 4) (p q : Fin 512) :
    k0_pay10 (F := Ideal) x0 x1 (ix3 n p q)
      = ((x0 (ix3 n p 0) * x0 (ix3 n p 0) + x0 (ix3 n p 1) * x0 (ix3 n p 1)) + x0 (ix3 n p 2) * x0 (ix3 n p 2))
        + ((x1 (ix3 n q 0) * x1 (ix3 n q 0) + x1 (ix3 n q 1) * x1 (ix3 n q 1)) + x1 (ix3 n q 2) * x1 (ix3 n q 2)) := by
  unfold k0_pay10
  simp only [addf_apply, mulf_apply, colb_apply, rowb_apply, k0_pay3_apply, k0_pay4_apply, k0_pay5_apply,
    k0_pay6_apply, k0_pay7_apply, k0_pay8_apply]

/-! ## Region 1: the coordinate arrays, the products and the squared norms at an index -/

theorem k1_pay3_apply (x : Vec Ideal S4x512x3 .f32) (n : Fin 4) (p : Fin 512) :
    k1_pay3 (F := Ideal) x (ix2 n p) = x (ix3 n p 0) := by
  unfold k1_pay3
  exact slice_col 0 x _ _ n p 0 rfl

theorem k1_pay4_apply (x : Vec Ideal S4x512x3 .f32) (n : Fin 4) (p : Fin 512) :
    k1_pay4 (F := Ideal) x (ix2 n p) = x (ix3 n p 1) := by
  unfold k1_pay4
  exact slice_col 1 x _ _ n p 1 rfl

theorem k1_pay5_apply (x : Vec Ideal S4x512x3 .f32) (n : Fin 4) (p : Fin 512) :
    k1_pay5 (F := Ideal) x (ix2 n p) = x (ix3 n p 2) := by
  unfold k1_pay5
  exact slice_col 2 x _ _ n p 2 rfl

theorem k1_pay6_apply (x : Vec Ideal S4x512x3 .f32) (n : Fin 4) (p : Fin 512) :
    k1_pay6 (F := Ideal) x (ix2 n p) = x (ix3 n p 0) := by
  unfold k1_pay6
  exact slice_col 0 x _ _ n p 0 rfl

theorem k1_pay7_apply (x : Vec Ideal S4x512x3 .f32) (n : Fin 4) (p : Fin 512) :
    k1_pay7 (F := Ideal) x (ix2 n p) = x (ix3 n p 1) := by
  unfold k1_pay7
  exact slice_col 1 x _ _ n p 1 rfl

theorem k1_pay8_apply (x : Vec Ideal S4x512x3 .f32) (n : Fin 4) (p : Fin 512) :
    k1_pay8 (F := Ideal) x (ix2 n p) = x (ix3 n p 2) := by
  unfold k1_pay8
  exact slice_col 2 x _ _ n p 2 rfl

/-- The inner products a·b of point p of the first block with point q of the second, as in region 0. -/
theorem k1_pay9_apply (x0 x1 : Vec Ideal S4x512x3 .f32) (n : Fin 4) (p q : Fin 512) :
    k1_pay9 (F := Ideal) x0 x1 (ix3 n p q)
      = (x0 (ix3 n p 0) * x1 (ix3 n q 0) + x0 (ix3 n p 1) * x1 (ix3 n q 1)) + x0 (ix3 n p 2) * x1 (ix3 n q 2) := by
  unfold k1_pay9
  simp only [addf_apply, mulf_apply, colb_apply, rowb_apply, k1_pay3_apply, k1_pay4_apply, k1_pay5_apply,
    k1_pay6_apply, k1_pay7_apply, k1_pay8_apply]

/-- The sums |a|² + |b|² of point p of the first block and point q of the second, as in region 0. -/
theorem k1_pay10_apply (x0 x1 : Vec Ideal S4x512x3 .f32) (n : Fin 4) (p q : Fin 512) :
    k1_pay10 (F := Ideal) x0 x1 (ix3 n p q)
      = ((x0 (ix3 n p 0) * x0 (ix3 n p 0) + x0 (ix3 n p 1) * x0 (ix3 n p 1)) + x0 (ix3 n p 2) * x0 (ix3 n p 2))
        + ((x1 (ix3 n q 0) * x1 (ix3 n q 0) + x1 (ix3 n q 1) * x1 (ix3 n q 1)) + x1 (ix3 n q 2) * x1 (ix3 n q 2)) := by
  unfold k1_pay10
  simp only [addf_apply, mulf_apply, colb_apply, rowb_apply, k1_pay3_apply, k1_pay4_apply, k1_pay5_apply,
    k1_pay6_apply, k1_pay7_apply, k1_pay8_apply]

/-! ## The four payloads at an index -/

/-- Region 0's reset value. -/
theorem reset0_apply (n : Fin 4) (p : Fin 512) : k0_pay2 (F := Ideal) (ix2 n p) = (⊤ : EReal) := by
  unfold k0_pay2
  rw [shapeCast_self]
  exact Chamfer.top_word

/-- Region 0's step: entry (n, p) lowered by the least squared distance from point p of the first block to the second block. -/
theorem step0_apply (x0 x1 : Vec Ideal S4x512x3 .f32) (s : Vec Ideal S4x512 .f32) (n : Fin 4) (p : Fin 512) :
    k0_pay1 (F := Ideal) (k0_pay9 x0 x1) (k0_pay10 x0 x1) s (ix2 n p)
      = min (s (ix2 n p)) (Finset.univ.inf fun q : Fin 512 => Chamfer.sqd x0 x1 n p q) := by
  unfold k0_pay1
  simp only [shapeCast_self, minimumf_apply]
  refine congrArg (min (s (ix2 n p))) ((red0_apply _ n p).trans (congrArg _ (funext fun q => ?_)))
  rw [subf_apply, mulf_apply, broadcast_apply, k0_pay9_apply, k0_pay10_apply]
  rfl

/-- Region 1's reset value. -/
theorem reset1_apply (n : Fin 4) (q : Fin 512) : k1_pay2 (F := Ideal) (ix2 n q) = (⊤ : EReal) := by
  unfold k1_pay2
  rw [shapeCast_self]
  exact Chamfer.top_word

/-- Region 1's step: entry (n, q) lowered by the least squared distance from point q of the second block to the first block. -/
theorem step1_apply (x0 x1 : Vec Ideal S4x512x3 .f32) (s : Vec Ideal S4x512 .f32) (n : Fin 4) (q : Fin 512) :
    k1_pay1 (F := Ideal) (k1_pay9 x0 x1) (k1_pay10 x0 x1) s (ix2 n q)
      = min (s (ix2 n q)) (Finset.univ.inf fun p : Fin 512 => Chamfer.sqd x0 x1 n p q) := by
  unfold k1_pay1
  simp only [shapeCast_self, minimumf_apply]
  refine congrArg (min (s (ix2 n q))) ((red1_apply _ n q).trans (congrArg _ (funext fun p => ?_)))
  rw [subf_apply, mulf_apply, broadcast_apply, k1_pay9_apply, k1_pay10_apply]
  rfl

end Cert.KernelIdeal.Val

end
-- ==== Proof.KI.Inv0.lean ====
/- Region 0's result. After the grid point (i, j) the running minimum holds, for point p of block i of the first cloud, the
   least squared distance to the first 512·(j+1) points of the second cloud; so what the point (i, 15) copies out is the least
   squared distance to the whole second cloud, and the array the region leaves holds that for every point of the first cloud.
   In order: what each case's run left, as a step from what it found; the blocks the point reads, as the clouds at shifted
   points; the invariant, by induction on the point's position; the value written back; the array. -/
import proofs.«116237_j481036337470_1_alg».proof.Proof.KI.Frame0
import proofs.«116237_j481036337470_1_alg».proof.Proof.KI.Pay
import proofs.«116237_j481036337470_1_alg».proof.Proof.Spec
import Idealize.ShloMosaic.Lib.ValueIdx
import Idealize.ShloMosaic.Lib.Pipeline.Value
import Idealize.ShloMosaic.Lib.Tactic

noncomputable section

namespace Cert.KernelIdeal.Val

open Cert.KernelIdeal Cert.KernelIdeal.Gen Cert.KernelIdeal.Fr Idealize.ShloMosaic Idealize.ShloMosaic.TcCoe Idealize.ShloMosaic.Tactic Idealize.ShloMosaic.ValueIdx Idealize.SL.Sem
open Idealize.ShloMosaic.Pipeline (Dat)

section Pieces

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- Where j = 0 the scratch ends at one step from the reset value. -/
theorem sout0_A (c : Dev nD) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : cond0_0 i) (hc1 : ¬cond0_1 i) (x0 x1 : Vec F S4x512x3 .f32) :
    sout0_A_0 c i arg2 harg2 arg3 harg3 arg4 harg4 arg5 harg5 hc0 hc1 x0 x1 = k0_pay1 (k0_pay9 x0 x1) (k0_pay10 x0 x1) (k0_pay2 (F := F)) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S4x512) hz2, View.readCov_unit_zero (S := S4x512) _ hz2]
  simp only [View.readAt_eq_ld, harg2.read_unread, harg3.read_unread, View.ld_unit_zero (S := S4x512x3) hz3]

/-- Where 0 < j < 15 the scratch ends at one step from what it held. -/
theorem sout0_B (c : Dev nD) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : ¬cond0_0 i) (hc1 : ¬cond0_1 i) (x0 x1 : Vec F S4x512x3 .f32) (xs0 : Vec F S4x512 .f32) :
    sout0_B_0 c i arg2 harg2 arg3 harg3 arg4 harg4 arg5 harg5 hc0 hc1 x0 x1 xs0 = k0_pay1 (k0_pay9 x0 x1) (k0_pay10 x0 x1) xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_unit_zero hz2]
  simp only [View.readAt_eq_ld, harg2.read_unread, harg3.read_unread, harg5.read_unread, View.ld_unit_zero (S := S4x512x3) hz3, View.ld_unit_zero (S := S4x512) hz2]

/-- Where j = 15 likewise, -/
theorem sout0_C (c : Dev nD) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : ¬cond0_0 i) (hc1 : cond0_1 i) (x0 x1 : Vec F S4x512x3 .f32) (xs0 : Vec F S4x512 .f32) :
    sout0_C_0 c i arg2 harg2 arg3 harg3 arg4 harg4 arg5 harg5 hc0 hc1 x0 x1 xs0 = k0_pay1 (k0_pay9 x0 x1) (k0_pay10 x0 x1) xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero hz2]
  simp only [View.readAt_eq_ld, harg2.read_unread, harg3.read_unread, harg5.read_unread, View.ld_unit_zero (S := S4x512x3) hz3, View.ld_unit_zero (S := S4x512) hz2]

/-- and the output window receives the same value: the scratch read back after the step. -/
theorem out0_C (c : Dev nD) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : ¬cond0_0 i) (hc1 : cond0_1 i) (x0 x1 : Vec F S4x512x3 .f32) (xs0 : Vec F S4x512 .f32) :
    out0_C_2 c i arg2 harg2 arg3 harg3 arg4 harg4 arg5 harg5 hc0 hc1 x0 x1 xs0 = k0_pay1 (k0_pay9 x0 x1) (k0_pay10 x0 x1) xs0 := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero hz2, View.readCov_unit_zero (S := S4x512) _ hz2]
  simp only [View.readAt_eq_ld, harg2.read_unread, harg3.read_unread, harg5.read_unread, View.ld_unit_zero (S := S4x512x3) hz3, View.ld_unit_zero (S := S4x512) hz2]

end Pieces

section Blocks

variable {F : FTy → Type} [FloatOps F]
variable (V : (c : Dev nD) → (b : Ref sig .tc) → Buf (Elt F) ((c : Thread nD τ).loc b))

/-- The two input blocks at a point and the two clouds, at their literal types. -/
abbrev xblk0 (c : Dev nD) (t : Fin cfg0.N) : Vec F S4x512x3 .f32 := iblk0 V c 0 t
abbrev yblk0 (c : Dev nD) (t : Fin cfg0.N) : Vec F S4x512x3 .f32 := iblk0 V c 1 t
abbrev arrX0 (c : Dev nD) : Vec F S4x8192x3 .f32 := V c main_arg0
abbrev arrY0 (c : Dev nD) : Vec F S4x8192x3 .f32 := V c main_arg1

/-- The index maps in closed form, decided over the grid: at point t the first cloud's block is t / 16, the second's t % 16,
    the output's t / 16. -/
theorem idx_facts0 : ∀ t : Fin cfg0.N,
    win0_0.index t (0 : Fin 3) = 0 ∧ win0_0.index t (1 : Fin 3) = t.val / 16 ∧ win0_0.index t (2 : Fin 3) = 0
    ∧ win0_1.index t (0 : Fin 3) = 0 ∧ win0_1.index t (1 : Fin 3) = t.val % 16 ∧ win0_1.index t (2 : Fin 3) = 0
    ∧ win0_2.index t (0 : Fin 2) = 0 ∧ win0_2.index t (1 : Fin 2) = t.val / 16 :=
  (by decide +kernel : ∀ t : Fin grid0.N, _)

/-- Point p of the first input block is point 512·(t/16) + p of the first cloud. -/
theorem xblk0_read (c : Dev nD) (t : Fin cfg0.N) (n : Fin 4) (p : Fin 512) (d : Fin 3) (P : Fin 8192) (hP : P.val = 512 * (t.val / 16) + p.val) :
    xblk0 V c t (ix3 n p d) = arrX0 V c (ix3 n P d) := by
  obtain ⟨e0, e1, e2, -⟩ := idx_facts0 t
  unfold xblk0 iblk0
  rw [View.read_apply]
  show V c main_arg0 _ = V c main_arg0 _
  refine congrArg _ ?_
  funext a; apply Fin.ext
  match a with
  | ⟨0, _⟩ => show win0_0.index t (0 : Fin 3) * 4 + 1 * n.val = n.val; rw [e0]; omega
  | ⟨1, _⟩ => show win0_0.index t (1 : Fin 3) * 512 + 1 * p.val = P.val; rw [e1, hP]; omega
  | ⟨2, _⟩ => show win0_0.index t (2 : Fin 3) * 3 + 1 * d.val = d.val; rw [e2]; omega

/-- Point q of the second input block is point 512·(t%16) + q of the second cloud. -/
theorem yblk0_read (c : Dev nD) (t : Fin cfg0.N) (n : Fin 4) (q : Fin 512) (d : Fin 3) (Q : Fin 8192) (hQ : Q.val = 512 * (t.val % 16) + q.val) :
    yblk0 V c t (ix3 n q d) = arrY0 V c (ix3 n Q d) := by
  obtain ⟨-, -, -, e0, e1, e2, -⟩ := idx_facts0 t
  unfold yblk0 iblk0
  rw [View.read_apply]
  show V c main_arg1 _ = V c main_arg1 _
  refine congrArg _ ?_
  funext a; apply Fin.ext
  match a with
  | ⟨0, _⟩ => show win0_1.index t (0 : Fin 3) * 4 + 1 * n.val = n.val; rw [e0]; omega
  | ⟨1, _⟩ => show win0_1.index t (1 : Fin 3) * 512 + 1 * q.val = Q.val; rw [e1, hQ]; omega
  | ⟨2, _⟩ => show win0_1.index t (2 : Fin 3) * 3 + 1 * d.val = d.val; rw [e2]; omega

end Blocks

section Invariant

variable (V : (c : Dev nD) → (b : Ref sig .tc) → Buf (Elt Ideal) ((c : Thread nD τ).loc b))

/-- A tile's squared distance is the clouds' at the shifted points. -/
theorem tile_sqd0 (c : Dev nD) (t : Fin cfg0.N) (n : Fin 4) (p q : Fin 512) (P Q : Fin 8192)
    (hP : P.val = 512 * (t.val / 16) + p.val) (hQ : Q.val = 512 * (t.val % 16) + q.val) :
    Chamfer.sqd (xblk0 V c t) (yblk0 V c t) n p q = Chamfer.sqd (arrX0 V c) (arrY0 V c) n P Q := by
  simp only [Chamfer.sqd, xblk0_read V c t n p _ P hP, yblk0_read V c t n q _ Q hQ]

/-- For point P of the first cloud, its squared distances to the second cloud's points. -/
abbrev f0 (c : Dev nD) (n : Fin 4) (P : Fin 8192) : Fin 8192 → EReal := fun Q => Chamfer.sqd (arrX0 V c) (arrY0 V c) n P Q

/-- One step at point t read at (n, p): the entry lowered by the infimum over block t % 16 of the second cloud. -/
theorem step_at0 (c : Dev nD) (t : Fin cfg0.N) (s : Vec Ideal S4x512 .f32) (n : Fin 4) (p : Fin 512) (P : Fin 8192)
    (hP : P.val = 512 * (t.val / 16) + p.val) :
    k0_pay1 (F := Ideal) (k0_pay9 (xblk0 V c t) (yblk0 V c t)) (k0_pay10 (xblk0 V c t) (yblk0 V c t)) s (ix2 n p)
      = min (s (ix2 n p)) (Finset.univ.inf fun r : Fin 512 => f0 V c n P ⟨512 * (t.val % 16) + r.val, by have := r.isLt; omega⟩) := by
  rw [step0_apply]
  refine congrArg (min _) (Finset.inf_congr rfl fun r _ => ?_)
  exact tile_sqd0 V c t n p r P _ hP rfl

/-- The running infimum after block j from the one before it. -/
theorem fold_step (f : Fin 8192 → EReal) (j : ℕ) (hj : j < 16) (prev : EReal) (hprev : prev = Chamfer.infUpTo f (512 * j))
    (g : Fin 512 → EReal) (hg : ∀ r : Fin 512, g r = f ⟨512 * j + r.val, by have := r.isLt; omega⟩) :
    min prev (Finset.univ.inf g) = Chamfer.infUpTo f (512 * (j + 1)) := by
  rw [Chamfer.infUpTo_step f j hj, hprev]
  exact congrArg (min _) (Finset.inf_congr rfl fun r _ => hg r)

/-- THE INVARIANT. After the point at position k = 16 i + j the scratch holds, for point p of block i of the first cloud, the
    least squared distance to the first 512 (j + 1) points of the second cloud. -/
theorem inv0 (c : Dev nD) : ∀ (k : ℕ) (h : k < cfg0.N) (n : Fin 4) (p : Fin 512) (P : Fin 8192), P.val = 512 * (k / 16) + p.val →
    (outsAt0 V c k h).2 (ix2 n p) = Chamfer.infUpTo (f0 V c n P) (512 * (k % 16 + 1))
  | 0, h, n, p, P, hP => by
    have e := outsAt0_A V c ⟨0, h⟩ rfl (by show ¬(0 : ℕ) % 16 = 15; omega)
    rw [show outsAt0 V c 0 h = _ from e]
    dsimp only
    rw [sout0_A, step_at0 V c ⟨0, h⟩ _ n p P hP, reset0_apply]
    refine fold_step (f0 V c n P) (0 % 16) (by omega) _ ?_ _ (fun r => rfl)
    rw [Nat.zero_mod]; exact (Chamfer.infUpTo_zero _).symm
  | k + 1, h, n, p, P, hP => by
    have hN : cfg0.N = 256 := N_0
    by_cases h0 : (k + 1) % 16 = 0
    · have h1 : ¬(k + 1) % 16 = 15 := by omega
      have e := outsAt0_A V c ⟨k + 1, h⟩ h0 h1
      rw [show outsAt0 V c (k + 1) h = _ from e]
      dsimp only
      rw [sout0_A, step_at0 V c ⟨k + 1, h⟩ _ n p P hP, reset0_apply]
      refine fold_step (f0 V c n P) ((k + 1) % 16) (by omega) _ ?_ _ (fun r => rfl)
      rw [h0]; exact (Chamfer.infUpTo_zero _).symm
    · have hP' : P.val = 512 * (k / 16) + p.val := by rw [hP]; omega
      have ih := inv0 c k (by omega) n p P hP'
      have hk : k % 16 + 1 = (k + 1) % 16 := by omega
      rw [hk] at ih
      by_cases h1 : (k + 1) % 16 = 15
      · have e := outsAt0_C V c ⟨k + 1, h⟩ h0 h1
        rw [show outsAt0 V c (k + 1) h = _ from e]
        dsimp only
        rw [sout0_C, step_at0 V c ⟨k + 1, h⟩ _ n p P hP]
        exact fold_step (f0 V c n P) ((k + 1) % 16) (by omega) _ ih _ (fun r => rfl)
      · have e := outsAt0_B V c ⟨k + 1, h⟩ h0 h1
        rw [show outsAt0 V c (k + 1) h = _ from e]
        dsimp only
        rw [sout0_B, step_at0 V c ⟨k + 1, h⟩ _ n p P hP]
        exact fold_step (f0 V c n P) ((k + 1) % 16) (by omega) _ ih _ (fun r => rfl)

/-- What a point with j = 15 copies out: the least squared distance to the whole second cloud. -/
theorem out_at0 (c : Dev nD) (t : Fin cfg0.N) (h15 : t.val % 16 = 15) (n : Fin 4) (p : Fin 512) (P : Fin 8192)
    (hP : P.val = 512 * (t.val / 16) + p.val) :
    (outsAt0 V c t.val t.isLt).1 (ix2 n p) = Chamfer.minA (arrX0 V c) (arrY0 V c) n P := by
  have hN : cfg0.N = 256 := N_0
  have h0 : ¬t.val % 16 = 0 := by omega
  have ih := inv0 V c (t.val - 1) (by omega) n p P (by rw [hP]; omega)
  have hk : (t.val - 1) % 16 + 1 = t.val % 16 := by omega
  rw [hk] at ih
  rw [outsAt0_C V c t h0 h15]
  dsimp only
  rw [out0_C, step_at0 V c t _ n p P hP]
  rw [fold_step (f0 V c n P) (t.val % 16) (by omega) _ ih _ (fun r => rfl), h15]
  exact Chamfer.infUpTo_full _

/-- The array of least squared distances from the first cloud's points. -/
abbrev G0 (c : Dev nD) : Vec Ideal S4x8192 .f32 := fun j => Chamfer.minA (arrX0 V c) (arrY0 V c) (j 0) (j 1)

/-- What a flushing point writes back is its block of that array. -/
theorem flushed_eq0 (c : Dev nD) (t : Fin cfg0.N) (hf : (cfg0.win 2).flush t = true) :
    (dat0 V c).flushed 2 t = ((cfg0.win 2).blk t).view.read (Elt Ideal) (G0 V c) := by
  have h15 := (flush0_2 t).mp hf
  have hN : cfg0.N = 256 := N_0
  obtain ⟨-, -, -, -, -, -, e0, e1⟩ := idx_facts0 t
  show (cfg0.win 2).cut (grid0.coords t) ((dat0 V c).after 2 t) = _
  rw [after0_2]
  funext y
  obtain ⟨n, p, rfl⟩ : ∃ (n : Fin 4) (p : Fin 512), y = ix2 n p := ⟨y 0, y 1, eq_ix2 y⟩
  rw [View.read_apply]
  have hlt : 512 * (t.val / 16) + p.val < 8192 := by have := p.isLt; have := t.isLt; omega
  show (outsAt0 V c t.val t.isLt).1 (ix2 n p) = G0 V c (((cfg0.win 2).blk t).view.emb (ix2 n p))
  rw [out_at0 V c t h15 n p ⟨_, hlt⟩ rfl]
  show _ = Chamfer.minA _ _ ((((cfg0.win 2).blk t).view.emb (ix2 n p)) 0) ((((cfg0.win 2).blk t).view.emb (ix2 n p)) 1)
  congr 1 <;> apply Fin.ext
  · show n.val = win0_2.index t (0 : Fin 2) * 4 + 1 * n.val; rw [e0]; omega
  · show 512 * (t.val / 16) + p.val = win0_2.index t (1 : Fin 2) * 512 + 1 * p.val; rw [e1]; omega

/-- An index of the array lies in point t's block iff each coordinate lies in the block's range. -/
theorem mem_blk0 (t : Fin cfg0.N) (i : S4x8192.Idx) :
    i ∈ ((cfg0.win 2).blk t).view.set ↔ ∀ a : Fin 2, win0_2.index t a * S4x512.size a ≤ (i a).val ∧ (i a).val < win0_2.index t a * S4x512.size a + S4x512.size a := by
  show i ∈ ((View.whole main_v0).slice (win0_2.rect t)).set ↔ _
  rw [View.set_slice_whole, Rect.mem_set_unit]
  exact Iff.rfl

/-- Every index lies in the block of the flushing point of its block row. -/
theorem cover0 (i : S4x8192.Idx) : ∃ t : Fin cfg0.N, (cfg0.win 2).flush t = true ∧ i ∈ ((cfg0.win 2).blk t).view.set := by
  have hN : cfg0.N = 256 := N_0
  have hi0 : (i 0).val < 4 := (i 0).isLt
  have hi1 : (i 1).val < 8192 := (i 1).isLt
  have ht : 16 * ((i 1).val / 512) + 15 < cfg0.N := by omega
  obtain ⟨-, -, -, -, -, -, e0, e1⟩ := idx_facts0 ⟨16 * ((i 1).val / 512) + 15, ht⟩
  refine ⟨⟨16 * ((i 1).val / 512) + 15, ht⟩, (flush0_2 _).mpr (by show (16 * ((i 1).val / 512) + 15) % 16 = 15; omega), ?_⟩
  rw [mem_blk0]
  intro a
  match a with
  | ⟨0, _⟩ =>
    show win0_2.index ⟨16 * ((i 1).val / 512) + 15, ht⟩ (0 : Fin 2) * 4 ≤ (i 0).val ∧ (i 0).val < win0_2.index ⟨16 * ((i 1).val / 512) + 15, ht⟩ (0 : Fin 2) * 4 + 4
    rw [e0]; omega
  | ⟨1, _⟩ =>
    show win0_2.index ⟨16 * ((i 1).val / 512) + 15, ht⟩ (1 : Fin 2) * 512 ≤ (i 1).val ∧ (i 1).val < win0_2.index ⟨16 * ((i 1).val / 512) + 15, ht⟩ (1 : Fin 2) * 512 + 512
    rw [e1]; show (16 * ((i 1).val / 512) + 15) / 16 * 512 ≤ (i 1).val ∧ (i 1).val < (16 * ((i 1).val / 512) + 15) / 16 * 512 + 512; omega

/-- The array region 0 leaves: for every point of the first cloud, the least squared distance to the second cloud. -/
theorem final0 (c : Dev nD) :
    (dat0 (F := Ideal) V c).arrAt 2 cfg0.N = fun j : S4x8192.Idx => Chamfer.minA (V c main_arg0) (V c main_arg1) (j 0) (j 1) :=
  (dat0 V c).arrAt_eq_of_cover 2 (G0 V c) (flushed_eq0 V c) cover0

end Invariant

end Cert.KernelIdeal.Val

end
-- ==== Proof.KI.Inv1.lean ====
/- Region 1's result, the mirror image of region 0's. After the grid point (i, j) the running minimum holds, for point q of
   block i of the second cloud, the least squared distance from the first 512·(j+1) points of the first cloud; what the point
   (i, 15) copies out is the least squared distance from the whole first cloud, and the array the region leaves holds that for
   every point of the second cloud. Here the first cloud's block moves with j and the second's with i, and the body's minimum
   runs along the first block's points. -/
import proofs.«116237_j481036337470_1_alg».proof.Proof.KI.Frame1
import proofs.«116237_j481036337470_1_alg».proof.Proof.KI.Inv0
import proofs.«116237_j481036337470_1_alg».proof.Proof.KI.Pay
import proofs.«116237_j481036337470_1_alg».proof.Proof.Spec
import Idealize.ShloMosaic.Lib.ValueIdx
import Idealize.ShloMosaic.Lib.Pipeline.Value
import Idealize.ShloMosaic.Lib.Tactic

noncomputable section

namespace Cert.KernelIdeal.Val

open Cert.KernelIdeal Cert.KernelIdeal.Gen Cert.KernelIdeal.Fr Idealize.ShloMosaic Idealize.ShloMosaic.TcCoe Idealize.ShloMosaic.Tactic Idealize.ShloMosaic.ValueIdx Idealize.SL.Sem
open Idealize.ShloMosaic.Pipeline (Dat)

section Pieces

variable {F : FTy → Type} [FloatOps F]

/-- Where j = 0 the scratch ends at one step from the reset value. -/
theorem sout1_A (c : Dev nD) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : cond1_0 i) (hc1 : ¬cond1_1 i) (x0 x1 : Vec F S4x512x3 .f32) :
    sout1_A_0 c i arg2 harg2 arg3 harg3 arg4 harg4 arg5 harg5 hc0 hc1 x0 x1 = k1_pay1 (k1_pay9 x0 x1) (k1_pay10 x0 x1) (k1_pay2 (F := F)) := by
  unfold sout1_A_0
  rw [View.read_writes_eq_canon _ _ _ (scover1_A_0 c i arg2 harg2 arg3 harg3 arg4 harg4 arg5 harg5 hc0 hc1 x0 x1)]
  unfold kernelRun1_A
  dsimp only
  sl_unfold_words
  rw [View.canon_cons_unit_zero (S := S4x512) hz2, View.readCov_unit_zero (S := S4x512) _ hz2]
  simp only [View.readAt_eq_ld, harg2.read_unread, harg3.read_unread, View.ld_unit_zero (S := S4x512x3) hz3]

/-- Where 0 < j < 15 the scratch ends at one step from what it held. -/
theorem sout1_B (c : Dev nD) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : ¬cond1_0 i) (hc1 : ¬cond1_1 i) (x0 x1 : Vec F S4x512x3 .f32) (xs0 : Vec F S4x512 .f32) :
    sout1_B_0 c i arg2 harg2 arg3 harg3 arg4 harg4 arg5 harg5 hc0 hc1 x0 x1 xs0 = k1_pay1 (k1_pay9 x0 x1) (k1_pay10 x0 x1) xs0 := by
  unfold sout1_B_0
  rw [View.read_writes_eq_canon _ _ _ (scover1_B_0 c i arg2 harg2 arg3 harg3 arg4 harg4 arg5 harg5 hc0 hc1 x0 x1 xs0)]
  unfold kernelRun1_B
  dsimp only
  sl_unfold_words
  rw [View.canon_unit_zero hz2]
  simp only [View.readAt_eq_ld, harg2.read_unread, harg3.read_unread, harg5.read_unread, View.ld_unit_zero (S := S4x512x3) hz3, View.ld_unit_zero (S := S4x512) hz2]

/-- Where j = 15 likewise, -/
theorem sout1_C (c : Dev nD) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : ¬cond1_0 i) (hc1 : cond1_1 i) (x0 x1 : Vec F S4x512x3 .f32) (xs0 : Vec F S4x512 .f32) :
    sout1_C_0 c i arg2 harg2 arg3 harg3 arg4 harg4 arg5 harg5 hc0 hc1 x0 x1 xs0 = k1_pay1 (k1_pay9 x0 x1) (k1_pay10 x0 x1) xs0 := by
  unfold sout1_C_0
  rw [View.read_writes_eq_canon _ _ _ (scover1_C_0 c i arg2 harg2 arg3 harg3 arg4 harg4 arg5 harg5 hc0 hc1 x0 x1 xs0)]
  unfold kernelRun1_C
  dsimp only
  sl_unfold_words
  rw [View.canon_unit_zero hz2]
  simp only [View.readAt_eq_ld, harg2.read_unread, harg3.read_unread, harg5.read_unread, View.ld_unit_zero (S := S4x512x3) hz3, View.ld_unit_zero (S := S4x512) hz2]

/-- and the output window receives the same value: the scratch read back after the step. -/
theorem out1_C (c : Dev nD) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : ¬cond1_0 i) (hc1 : cond1_1 i) (x0 x1 : Vec F S4x512x3 .f32) (xs0 : Vec F S4x512 .f32) :
    out1_C_2 c i arg2 harg2 arg3 harg3 arg4 harg4 arg5 harg5 hc0 hc1 x0 x1 xs0 = k1_pay1 (k1_pay9 x0 x1) (k1_pay10 x0 x1) xs0 := by
  unfold out1_C_2
  rw [View.read_writes_eq_canon _ _ _ (cover1_C_2 c i arg2 harg2 arg3 harg3 arg4 harg4 arg5 harg5 hc0 hc1 x0 x1 xs0)]
  unfold kernelRun1_C
  dsimp only
  sl_unfold_words
  rw [View.canon_unit_zero hz2, View.readCov_unit_zero (S := S4x512) _ hz2]
  simp only [View.readAt_eq_ld, harg2.read_unread, harg3.read_unread, harg5.read_unread, View.ld_unit_zero (S := S4x512x3) hz3, View.ld_unit_zero (S := S4x512) hz2]

end Pieces

section Blocks

variable {F : FTy → Type} [FloatOps F]
variable (V : (c : Dev nD) → (b : Ref sig .tc) → Buf (Elt F) ((c : Thread nD τ).loc b))

/-- The two input blocks at a point and the two clouds, at their literal types. -/
abbrev xblk1 (c : Dev nD) (t : Fin cfg1.N) : Vec F S4x512x3 .f32 := iblk1 V c 0 t
abbrev yblk1 (c : Dev nD) (t : Fin cfg1.N) : Vec F S4x512x3 .f32 := iblk1 V c 1 t
abbrev arrX1 (c : Dev nD) : Vec F S4x8192x3 .f32 := V c main_arg0
abbrev arrY1 (c : Dev nD) : Vec F S4x8192x3 .f32 := V c main_arg1

/-- The index maps in closed form, decided over the grid: at point t the first cloud's block is t % 16, the second's t / 16,
    the output's t / 16. -/
theorem idx_facts1 : ∀ t : Fin cfg1.N,
    win1_0.index t (0 : Fin 3) = 0 ∧ win1_0.index t (1 : Fin 3) = t.val % 16 ∧ win1_0.index t (2 : Fin 3) = 0
    ∧ win1_1.index t (0 : Fin 3) = 0 ∧ win1_1.index t (1 : Fin 3) = t.val / 16 ∧ win1_1.index t (2 : Fin 3) = 0
    ∧ win1_2.index t (0 : Fin 2) = 0 ∧ win1_2.index t (1 : Fin 2) = t.val / 16 :=
  (by decide +kernel : ∀ t : Fin grid1.N, _)

/-- Point p of the first input block is point 512·(t%16) + p of the first cloud. -/
theorem xblk1_read (c : Dev nD) (t : Fin cfg1.N) (n : Fin 4) (p : Fin 512) (d : Fin 3) (P : Fin 8192) (hP : P.val = 512 * (t.val % 16) + p.val) :
    xblk1 V c t (ix3 n p d) = arrX1 V c (ix3 n P d) := by
  obtain ⟨e0, e1, e2, -⟩ := idx_facts1 t
  unfold xblk1 iblk1
  rw [View.read_apply]
  show V c main_arg0 _ = V c main_arg0 _
  refine congrArg _ ?_
  funext a; apply Fin.ext
  match a with
  | ⟨0, _⟩ => show win1_0.index t (0 : Fin 3) * 4 + 1 * n.val = n.val; rw [e0]; omega
  | ⟨1, _⟩ => show win1_0.index t (1 : Fin 3) * 512 + 1 * p.val = P.val; rw [e1, hP]; omega
  | ⟨2, _⟩ => show win1_0.index t (2 : Fin 3) * 3 + 1 * d.val = d.val; rw [e2]; omega

/-- Point q of the second input block is point 512·(t/16) + q of the second cloud. -/
theorem yblk1_read (c : Dev nD) (t : Fin cfg1.N) (n : Fin 4) (q : Fin 512) (d : Fin 3) (Q : Fin 8192) (hQ : Q.val = 512 * (t.val / 16) + q.val) :
    yblk1 V c t (ix3 n q d) = arrY1 V c (ix3 n Q d) := by
  obtain ⟨-, -, -, e0, e1, e2, -⟩ := idx_facts1 t
  unfold yblk1 iblk1
  rw [View.read_apply]
  show V c main_arg1 _ = V c main_arg1 _
  refine congrArg _ ?_
  funext a; apply Fin.ext
  match a with
  | ⟨0, _⟩ => show win1_1.index t (0 : Fin 3) * 4 + 1 * n.val = n.val; rw [e0]; omega
  | ⟨1, _⟩ => show win1_1.index t (1 : Fin 3) * 512 + 1 * q.val = Q.val; rw [e1, hQ]; omega
  | ⟨2, _⟩ => show win1_1.index t (2 : Fin 3) * 3 + 1 * d.val = d.val; rw [e2]; omega

end Blocks

section Invariant

variable (V : (c : Dev nD) → (b : Ref sig .tc) → Buf (Elt Ideal) ((c : Thread nD τ).loc b))

/-- A tile's squared distance is the clouds' at the shifted points. -/
theorem tile_sqd1 (c : Dev nD) (t : Fin cfg1.N) (n : Fin 4) (p q : Fin 512) (P Q : Fin 8192)
    (hP : P.val = 512 * (t.val % 16) + p.val) (hQ : Q.val = 512 * (t.val / 16) + q.val) :
    Chamfer.sqd (xblk1 V c t) (yblk1 V c t) n p q = Chamfer.sqd (arrX1 V c) (arrY1 V c) n P Q := by
  simp only [Chamfer.sqd, xblk1_read V c t n p _ P hP, yblk1_read V c t n q _ Q hQ]

/-- For point Q of the second cloud, the squared distances from the first cloud's points. -/
abbrev f1 (c : Dev nD) (n : Fin 4) (Q : Fin 8192) : Fin 8192 → EReal := fun P => Chamfer.sqd (arrX1 V c) (arrY1 V c) n P Q

/-- One step at point t read at (n, q): the entry lowered by the infimum over block t % 16 of the first cloud. -/
theorem step_at1 (c : Dev nD) (t : Fin cfg1.N) (s : Vec Ideal S4x512 .f32) (n : Fin 4) (q : Fin 512) (Q : Fin 8192)
    (hQ : Q.val = 512 * (t.val / 16) + q.val) :
    k1_pay1 (F := Ideal) (k1_pay9 (xblk1 V c t) (yblk1 V c t)) (k1_pay10 (xblk1 V c t) (yblk1 V c t)) s (ix2 n q)
      = min (s (ix2 n q)) (Finset.univ.inf fun r : Fin 512 => f1 V c n Q ⟨512 * (t.val % 16) + r.val, by have := r.isLt; omega⟩) := by
  rw [step1_apply]
  refine congrArg (min _) (Finset.inf_congr rfl fun r _ => ?_)
  exact tile_sqd1 V c t n r q _ Q rfl hQ

/-- THE INVARIANT. After the point at position k = 16 i + j the scratch holds, for point q of block i of the second cloud, the
    least squared distance from the first 512 (j + 1) points of the first cloud. -/
theorem inv1 (c : Dev nD) : ∀ (k : ℕ) (h : k < cfg1.N) (n : Fin 4) (q : Fin 512) (Q : Fin 8192), Q.val = 512 * (k / 16) + q.val →
    (outsAt1 V c k h).2 (ix2 n q) = Chamfer.infUpTo (f1 V c n Q) (512 * (k % 16 + 1))
  | 0, h, n, q, Q, hQ => by
    have e := outsAt1_A V c ⟨0, h⟩ rfl (by show ¬(0 : ℕ) % 16 = 15; omega)
    rw [show outsAt1 V c 0 h = _ from e]
    dsimp only
    rw [sout1_A, step_at1 V c ⟨0, h⟩ _ n q Q hQ, reset1_apply]
    refine fold_step (f1 V c n Q) (0 % 16) (by omega) _ ?_ _ (fun r => rfl)
    rw [Nat.zero_mod]; exact (Chamfer.infUpTo_zero _).symm
  | k + 1, h, n, q, Q, hQ => by
    have hN : cfg1.N = 256 := N_1
    by_cases h0 : (k + 1) % 16 = 0
    · have h1 : ¬(k + 1) % 16 = 15 := by omega
      have e := outsAt1_A V c ⟨k + 1, h⟩ h0 h1
      rw [show outsAt1 V c (k + 1) h = _ from e]
      dsimp only
      rw [sout1_A, step_at1 V c ⟨k + 1, h⟩ _ n q Q hQ, reset1_apply]
      refine fold_step (f1 V c n Q) ((k + 1) % 16) (by omega) _ ?_ _ (fun r => rfl)
      rw [h0]; exact (Chamfer.infUpTo_zero _).symm
    · have hQ' : Q.val = 512 * (k / 16) + q.val := by rw [hQ]; omega
      have ih := inv1 c k (by omega) n q Q hQ'
      have hk : k % 16 + 1 = (k + 1) % 16 := by omega
      rw [hk] at ih
      by_cases h1 : (k + 1) % 16 = 15
      · have e := outsAt1_C V c ⟨k + 1, h⟩ h0 h1
        rw [show outsAt1 V c (k + 1) h = _ from e]
        dsimp only
        rw [sout1_C, step_at1 V c ⟨k + 1, h⟩ _ n q Q hQ]
        exact fold_step (f1 V c n Q) ((k + 1) % 16) (by omega) _ ih _ (fun r => rfl)
      · have e := outsAt1_B V c ⟨k + 1, h⟩ h0 h1
        rw [show outsAt1 V c (k + 1) h = _ from e]
        dsimp only
        rw [sout1_B, step_at1 V c ⟨k + 1, h⟩ _ n q Q hQ]
        exact fold_step (f1 V c n Q) ((k + 1) % 16) (by omega) _ ih _ (fun r => rfl)

/-- What a point with j = 15 copies out: the least squared distance from the whole first cloud. -/
theorem out_at1 (c : Dev nD) (t : Fin cfg1.N) (h15 : t.val % 16 = 15) (n : Fin 4) (q : Fin 512) (Q : Fin 8192)
    (hQ : Q.val = 512 * (t.val / 16) + q.val) :
    (outsAt1 V c t.val t.isLt).1 (ix2 n q) = Chamfer.minB (arrX1 V c) (arrY1 V c) n Q := by
  have hN : cfg1.N = 256 := N_1
  have h0 : ¬t.val % 16 = 0 := by omega
  have ih := inv1 V c (t.val - 1) (by omega) n q Q (by rw [hQ]; omega)
  have hk : (t.val - 1) % 16 + 1 = t.val % 16 := by omega
  rw [hk] at ih
  rw [outsAt1_C V c t h0 h15]
  dsimp only
  rw [out1_C, step_at1 V c t _ n q Q hQ]
  rw [fold_step (f1 V c n Q) (t.val % 16) (by omega) _ ih _ (fun r => rfl), h15]
  exact Chamfer.infUpTo_full _

/-- The array of least squared distances from the second cloud's points. -/
abbrev G1 (c : Dev nD) : Vec Ideal S4x8192 .f32 := fun j => Chamfer.minB (arrX1 V c) (arrY1 V c) (j 0) (j 1)

/-- What a flushing point writes back is its block of that array. -/
theorem flushed_eq1 (c : Dev nD) (t : Fin cfg1.N) (hf : (cfg1.win 2).flush t = true) :
    (dat1 V c).flushed 2 t = ((cfg1.win 2).blk t).view.read (Elt Ideal) (G1 V c) := by
  have h15 := (flush1_2 t).mp hf
  have hN : cfg1.N = 256 := N_1
  obtain ⟨-, -, -, -, -, -, e0, e1⟩ := idx_facts1 t
  show (cfg1.win 2).cut (grid1.coords t) ((dat1 V c).after 2 t) = _
  rw [after1_2]
  funext y
  obtain ⟨n, q, rfl⟩ : ∃ (n : Fin 4) (q : Fin 512), y = ix2 n q := ⟨y 0, y 1, eq_ix2 y⟩
  rw [View.read_apply]
  have hlt : 512 * (t.val / 16) + q.val < 8192 := by have := q.isLt; have := t.isLt; omega
  show (outsAt1 V c t.val t.isLt).1 (ix2 n q) = G1 V c (((cfg1.win 2).blk t).view.emb (ix2 n q))
  rw [out_at1 V c t h15 n q ⟨_, hlt⟩ rfl]
  show _ = Chamfer.minB _ _ ((((cfg1.win 2).blk t).view.emb (ix2 n q)) 0) ((((cfg1.win 2).blk t).view.emb (ix2 n q)) 1)
  congr 1 <;> apply Fin.ext
  · show n.val = win1_2.index t (0 : Fin 2) * 4 + 1 * n.val; rw [e0]; omega
  · show 512 * (t.val / 16) + q.val = win1_2.index t (1 : Fin 2) * 512 + 1 * q.val; rw [e1]; omega

/-- An index of the array lies in point t's block iff each coordinate lies in the block's range. -/
theorem mem_blk1 (t : Fin cfg1.N) (i : S4x8192.Idx) :
    i ∈ ((cfg1.win 2).blk t).view.set ↔ ∀ a : Fin 2, win1_2.index t a * S4x512.size a ≤ (i a).val ∧ (i a).val < win1_2.index t a * S4x512.size a + S4x512.size a := by
  show i ∈ ((View.whole main_v1).slice (win1_2.rect t)).set ↔ _
  rw [View.set_slice_whole, Rect.mem_set_unit]
  exact Iff.rfl

/-- Every index lies in the block of the flushing point of its block row. -/
theorem cover1 (i : S4x8192.Idx) : ∃ t : Fin cfg1.N, (cfg1.win 2).flush t = true ∧ i ∈ ((cfg1.win 2).blk t).view.set := by
  have hN : cfg1.N = 256 := N_1
  have hi0 : (i 0).val < 4 := (i 0).isLt
  have hi1 : (i 1).val < 8192 := (i 1).isLt
  have ht : 16 * ((i 1).val / 512) + 15 < cfg1.N := by omega
  obtain ⟨-, -, -, -, -, -, e0, e1⟩ := idx_facts1 ⟨16 * ((i 1).val / 512) + 15, ht⟩
  refine ⟨⟨16 * ((i 1).val / 512) + 15, ht⟩, (flush1_2 _).mpr (by show (16 * ((i 1).val / 512) + 15) % 16 = 15; omega), ?_⟩
  rw [mem_blk1]
  intro a
  match a with
  | ⟨0, _⟩ =>
    show win1_2.index ⟨16 * ((i 1).val / 512) + 15, ht⟩ (0 : Fin 2) * 4 ≤ (i 0).val ∧ (i 0).val < win1_2.index ⟨16 * ((i 1).val / 512) + 15, ht⟩ (0 : Fin 2) * 4 + 4
    rw [e0]; omega
  | ⟨1, _⟩ =>
    show win1_2.index ⟨16 * ((i 1).val / 512) + 15, ht⟩ (1 : Fin 2) * 512 ≤ (i 1).val ∧ (i 1).val < win1_2.index ⟨16 * ((i 1).val / 512) + 15, ht⟩ (1 : Fin 2) * 512 + 512
    rw [e1]; show (16 * ((i 1).val / 512) + 15) / 16 * 512 ≤ (i 1).val ∧ (i 1).val < (16 * ((i 1).val / 512) + 15) / 16 * 512 + 512; omega

/-- The array region 1 leaves: for every point of the second cloud, the least squared distance from the first cloud. -/
theorem final1 (c : Dev nD) :
    (dat1 (F := Ideal) V c).arrAt 2 cfg1.N = fun j : S4x8192.Idx => Chamfer.minB (V c main_arg0) (V c main_arg1) (j 0) (j 1) :=
  (dat1 V c).arrAt_eq_of_cover 2 (G1 V c) (flushed_eq1 V c) cover1

end Invariant

end Cert.KernelIdeal.Val

end
-- ==== Proof.KI.Result.lean ====
/- The program's result. The closing host operations take the two arrays the regions leave, average each over its 8192
   entries and add the two averages: one function of the two arrays. At the extended reals the first array holds, for every
   point of the first cloud, the least squared distance to the second cloud, and the second array the same with the clouds
   exchanged; so the result is that function of those two arrays of minima of the launch contents. -/
import proofs.«116237_j481036337470_1_alg».proof.Proof.KI.Args
import proofs.«116237_j481036337470_1_alg».proof.Proof.KI.Inv0
import proofs.«116237_j481036337470_1_alg».proof.Proof.KI.Inv1
import Idealize.ShloMosaic.Lib.StableHlo.Run

noncomputable section

namespace Cert.KernelIdeal.Val

open Cert.KernelIdeal Cert.KernelIdeal.Gen Cert.KernelIdeal.Fr Idealize.ShloMosaic Idealize.ShloMosaic.TcCoe Idealize.ShloMosaic.ValueIdx Idealize.SL.Sem Idealize.ShloMosaic.StableHlo
open Idealize.ShloMosaic.Pipeline (Dat)

section Tail

variable {F : FTy → Type} [FloatOps F]

/-- The closing host operations as one function of the two arrays of minima: each array's sum over its points from zero,
    divided by 8192, and the two quotients added. -/
def tail (A B : (⟨S4x8192, .f32⟩ : BufTy).Contents (Elt F)) : (⟨S4, .f32⟩ : BufTy).Contents (Elt F) :=
  addf (Host.divf (Host.reduceAdd A (constant S_ .f32 0x00000000#32) reducesTo_S4x8192_S4_d1 h_S_) (broadcastInDim S4 ![] bcast_S_S4 (constant S_ .f32 0x46000000#32)))
    (Host.divf (Host.reduceAdd B (constant S_ .f32 0x00000000#32) reducesTo_S4x8192_S4_d1 h_S_) (broadcastInDim S4 ![] bcast_S_S4 (constant S_ .f32 0x46000000#32)))

variable (m : (ℓ : Loc nD τ sig) → Buf (Elt F) ℓ) (ρ : Dev nD → PrngReg)

/-- At the last boundary the result buffer holds that function of what the regions left. -/
theorem W3_main_v8 (c : Dev nD) :
    W3 m ρ c (Proc.devRef .tc main_v8) = tail (W2 m ρ c (Proc.devRef .tc main_v0)) (W2 m ρ c (Proc.devRef .tc main_v1)) := by
  show StableHlo.after hostOps2 _ (Proc.devRef .tc main_v8) = _
  after_results
  rfl

end Tail

section Ideal

variable (m : (ℓ : Loc nD τ sig) → Buf (Elt Ideal) ℓ) (ρ : Dev nD → PrngReg)

/-- The two arrays of minima of the launch contents. -/
abbrev minsA (c : Dev nD) : (⟨S4x8192, .f32⟩ : BufTy).Contents (Elt Ideal) :=
  fun j => Chamfer.minA (m ((c : Thread nD τ).loc main_arg0)) (m ((c : Thread nD τ).loc main_arg1)) (j 0) (j 1)
abbrev minsB (c : Dev nD) : (⟨S4x8192, .f32⟩ : BufTy).Contents (Elt Ideal) :=
  fun j => Chamfer.minB (m ((c : Thread nD τ).loc main_arg0)) (m ((c : Thread nD τ).loc main_arg1)) (j 0) (j 1)

/-- The result buffer at the last boundary, at the extended reals. -/
theorem result (c : Dev nD) : W3 m ρ c (Proc.devRef .tc main_v8) = tail (minsA m c) (minsB m c) := by
  rw [W3_main_v8]
  have e0 : W2 m ρ c (Proc.devRef .tc main_v0) = minsA m c :=
    (W2_of_ne m ρ c main_v0 (by decide)).trans ((W1_arr m ρ c 2).trans (final0 (V0 m ρ) c))
  have e1 : W2 m ρ c (Proc.devRef .tc main_v1) = minsB m c := by
    refine (W2_arr m ρ c 2).trans ((final1 (V1 m ρ) c).trans ?_)
    show (fun j : S4x8192.Idx => Chamfer.minB (W1 m ρ c (Proc.devRef .tc main_arg0)) (W1 m ρ c (Proc.devRef .tc main_arg1)) (j 0) (j 1)) = _
    rw [W1_main_arg0, W1_main_arg1]
  rw [e0, e1]

/-- THE RUN, READ: every weakly fair execution of @main terminates with the result at that function of the launch contents'
    arrays of minima, both arguments unchanged. -/
theorem run : θ_run defs (onTc (τ := τ) (main (F := Ideal))) ⟨m, fun _ => 0, ρ⟩ (fun r => ∀ c : Dev nD,
      r.2.mem ((c.tc : Thread nD τ).loc main_v8) = tail (minsA m c) (minsB m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_v8 (by decide))).trans (result m ρ c),
     (h c _ (mem_uc main_arg0 (by decide))).trans (W3_main_arg0 m ρ c),
     (h c _ (mem_uc main_arg1 (by decide))).trans (W3_main_arg1 m ρ c)⟩) (run_all m ρ)

end Ideal

end Cert.KernelIdeal.Val

end
-- ==== Proof.RefVal.lean ====
/- The reference's two arrays of minima, read at an index: its squared-distance array at (n, p, q) is the squared distance
   between point p of the first cloud and point q of the second, and its two min-reductions from +∞ are the least squared
   distance from each point of one cloud to the other cloud. -/
import proofs.«116237_j481036337470_1_alg».proof.Proof.Gen.ReferenceIdeal.Read
import proofs.«116237_j481036337470_1_alg».proof.Proof.Spec
import Idealize.ShloMosaic.PureOps.Reduce
import Idealize.ShloMosaic.PureOps.Ideal.Laws
import Idealize.ShloMosaic.Lib.ValueIdx

noncomputable section

namespace Cert.ReferenceIdeal.RefVal

open Cert.ReferenceIdeal Cert.ReferenceIdeal.Gen Cert.ReferenceIdeal.Read Idealize.ShloMosaic Idealize.ShloMosaic.ValueIdx

/-- Reading the squared norms of the first cloud: the index chain from (n, p, q) through the two broadcasts and the sum
    over the coordinate axis lands on (n, p, k). -/
private theorem idx_normA (n : Fin 4) (p q : Fin 8192) (k : Fin 3) :
    idx_main_v1 (idx_main_v5 (idx_main_v7 (ix3 n p q))) k = ix3 n p k := by
  funext a
  match a with
  | ⟨0, _⟩ => rfl
  | ⟨1, _⟩ => rfl
  | ⟨2, _⟩ => rfl

/-- Reading the squared norms of the second cloud: the chain lands on (n, q, k). -/
private theorem idx_normB (n : Fin 4) (p q : Fin 8192) (k : Fin 3) :
    idx_main_v3 (idx_main_v6 (idx_main_v8 (ix3 n p q))) k = ix3 n q k := by
  funext a
  match a with
  | ⟨0, _⟩ => rfl
  | ⟨1, _⟩ => rfl
  | ⟨2, _⟩ => rfl

/-- The inner product reads the first cloud at (n, p, k) … -/
private theorem idx_dotL (n : Fin 4) (p q : Fin 8192) (k : Fin 3) :
    lidx_main_v4 (ix3 n p q) k = ix3 n p k := by
  funext a
  match a with
  | ⟨0, _⟩ => rfl
  | ⟨1, _⟩ => rfl
  | ⟨2, _⟩ => rfl

/-- … and the second at (n, q, k). -/
private theorem idx_dotR (n : Fin 4) (p q : Fin 8192) (k : Fin 3) :
    ridx_main_v4 (ix3 n p q) k = ix3 n q k := by
  funext a
  match a with
  | ⟨0, _⟩ => rfl
  | ⟨1, _⟩ => rfl
  | ⟨2, _⟩ => rfl

/-- The reference's squared-distance array at (n, p, q). -/
theorem sqd_apply (x0 x1 : (⟨S4x8192x3, .f32⟩ : BufTy).Contents (Elt Ideal)) (n : Fin 4) (p q : Fin 8192) :
    val_main_v12 (F := Ideal) x0 x1 (ix3 n p q) = Chamfer.sqd x0 x1 n p q := by
  rw [val_main_v12_apply, val_main_v9_apply, val_main_v11_apply, val_main_v10_apply, val_main_cst_1_apply,
    val_main_v7_apply, val_main_v8_apply, val_main_v5_apply, val_main_v6_apply, val_main_v4_apply,
    val_main_v1_apply, val_main_v3_apply, val_main_cst_apply, val_main_cst_0_apply]
  simp only [val_main_v0_apply, val_main_v2_apply, idx_normA, idx_normB, idx_dotL, idx_dotR, Fin.sum_univ_three,
    Ideal.ofBits_def, Ideal.ofBits_zero_f32, zero_add, Ideal.mulf_def, Ideal.addf_def, Ideal.subf_def]
  rfl

/-- Dropping the last axis of a 4 × 8192 × 8192 array leaves a 4 × 8192 one. -/
private theorem reduces_d2 : S4x8192x8192.Reduces [2] S4x8192 := by decide

/-- Dropping the middle axis of a 4 × 8192 × 8192 array leaves a 4 × 8192 one. -/
private theorem reduces_d1 : S4x8192x8192.Reduces [1] S4x8192 := by decide

/-- Over result index j, the source index with coordinate k inserted on the last axis is (j 0, j 1, k). -/
private theorem lift_d2 (j : S4x8192.Idx) (k : Fin (S4x8192x8192.size 2)) :
    reduces_d2.lift j k = ix3 (j 0) (j 1) (k : Fin 8192) := by
  funext c
  apply Fin.ext
  show reduces_d2.liftVal j k.val c = _
  unfold Shape.Reduces.liftVal
  match c with
  | ⟨0, _⟩ => rfl
  | ⟨1, _⟩ => rfl
  | ⟨2, _⟩ => rfl

/-- Over result index j, the source index with coordinate k inserted on the middle axis is (j 0, k, j 1). -/
private theorem lift_d1 (j : S4x8192.Idx) (k : Fin (S4x8192x8192.size 1)) :
    reduces_d1.lift j k = ix3 (j 0) (k : Fin 8192) (j 1) := by
  funext c
  apply Fin.ext
  show reduces_d1.liftVal j k.val c = _
  unfold Shape.Reduces.liftVal
  match c with
  | ⟨0, _⟩ => rfl
  | ⟨1, _⟩ => rfl
  | ⟨2, _⟩ => rfl

/-- Its minimum over the second cloud's points. -/
theorem ref_minA (x0 x1 : (⟨S4x8192x3, .f32⟩ : BufTy).Contents (Elt Ideal)) :
    val_main_v13 (F := Ideal) x0 x1 = fun j => Chamfer.minA x0 x1 (j 0) (j 1) := by
  funext j
  unfold val_main_v13
  rw [Host.reduce_eq_fold_single FloatOps.minimumf _ _ Facts₀.reducesTo_S4x8192x8192_S4x8192_d2 reduces_d2 Facts₀.h_S_ j]
  refine Eq.trans (Chamfer.fold_min_top (α := Fin 8192)
    fun k => val_main_v12 (F := Ideal) x0 x1 (reduces_d2.lift j k)) ?_
  unfold Chamfer.minA
  refine congrArg (Finset.univ.inf ·) (funext fun k => ?_)
  exact (congrArg (val_main_v12 (F := Ideal) x0 x1) (lift_d2 j k)).trans (sqd_apply x0 x1 (j 0) (j 1) k)

/-- Its minimum over the first cloud's points. -/
theorem ref_minB (x0 x1 : (⟨S4x8192x3, .f32⟩ : BufTy).Contents (Elt Ideal)) :
    val_main_v14 (F := Ideal) x0 x1 = fun j => Chamfer.minB x0 x1 (j 0) (j 1) := by
  funext j
  unfold val_main_v14
  rw [Host.reduce_eq_fold_single FloatOps.minimumf _ _ Facts₀.reducesTo_S4x8192x8192_S4x8192_d1 reduces_d1 Facts₀.h_S_ j]
  refine Eq.trans (Chamfer.fold_min_top (α := Fin 8192)
    fun k => val_main_v12 (F := Ideal) x0 x1 (reduces_d1.lift j k)) ?_
  unfold Chamfer.minB
  refine congrArg (Finset.univ.inf ·) (funext fun k => ?_)
  exact (congrArg (val_main_v12 (F := Ideal) x0 x1) (lift_d1 j k)).trans (sqd_apply x0 x1 (j 0) k (j 1))

end Cert.ReferenceIdeal.RefVal

end
-- ==== Proof.lean ====
/- The proof of the certificate. Both programs compute the symmetric nearest-neighbour (chamfer) distance of two clouds of
   8192 points in batches of 4: for every point of one cloud the least squared distance |a|² + |b|² − 2 a·b to the other cloud,
   averaged over the cloud, the two averages added. The kernel takes each direction's minima in a region of its own, block by
   block of 512 points, keeping a running minimum from +∞; the reference takes them in one reduction each. Over the extended
   reals a minimum over 8192 points is the running minimum over 16 blocks of 512, the three-term sums of the kernel are the
   reference's sums over the coordinate, and the closing average-and-add is the same function on both sides; so the results
   agree, with no use of the inputs' finiteness.
   The frames: each program's run ends with every unscoped buffer at the last boundary's contents, and no item of @main
   writes an argument. The idealization rewrote no operation, so what it preserves is nothing to prove. -/
import proofs.«116237_j481036337470_1_alg».proof.Defs
import proofs.«116237_j481036337470_1_alg».proof.Proof.Gen.Kernel
import proofs.«116237_j481036337470_1_alg».proof.Proof.Gen.Kernel.Skeleton
import proofs.«116237_j481036337470_1_alg».proof.Proof.Gen.Kernel.Launch
import proofs.«116237_j481036337470_1_alg».proof.Proof.Gen.Kernel.Regions
import proofs.«116237_j481036337470_1_alg».proof.Proof.Gen.Kernel.Points
import proofs.«116237_j481036337470_1_alg».proof.Proof.Gen.KernelIdeal
import proofs.«116237_j481036337470_1_alg».proof.Proof.Gen.KernelIdeal.Skeleton
import proofs.«116237_j481036337470_1_alg».proof.Proof.Gen.KernelIdeal.Launch
import proofs.«116237_j481036337470_1_alg».proof.Proof.Gen.KernelIdeal.Regions
import proofs.«116237_j481036337470_1_alg».proof.Proof.Gen.KernelIdeal.Points
import proofs.«116237_j481036337470_1_alg».proof.Proof.Gen.ReferenceIdeal
import proofs.«116237_j481036337470_1_alg».proof.Proof.Gen.ReferenceIdeal.Run
import proofs.«116237_j481036337470_1_alg».proof.Proof.Gen.ReferenceIdeal.Read
import proofs.«116237_j481036337470_1_alg».proof.Proof.Gen.Pre_finite_inputs
import proofs.«116237_j481036337470_1_alg».proof.Proof.K.Args
import proofs.«116237_j481036337470_1_alg».proof.Proof.KI.Result
import proofs.«116237_j481036337470_1_alg».proof.Proof.RefVal
import Idealize.ShloMosaic.Adequacy
import Idealize.ShloMosaic.Init

noncomputable section

namespace Cert.Proof

open Idealize.ShloMosaic Idealize.ShloMosaic.TcCoe Idealize.SL.Sem

/-- The reference's result is the closing average-and-add of its two arrays of minima. -/
theorem ref_result (x0 x1 : (⟨Cert.ReferenceIdeal.S4x8192x3, .f32⟩ : BufTy).Contents (Elt Ideal)) :
    Cert.ReferenceIdeal.Read.val_main_v21 (F := Ideal) x0 x1
      = Cert.KernelIdeal.Val.tail (F := Ideal) (fun j => Chamfer.minA x0 x1 (j 0) (j 1)) (fun j => Chamfer.minB x0 x1 (j 0) (j 1)) := by
  rw [← Cert.ReferenceIdeal.RefVal.ref_minA x0 x1, ← Cert.ReferenceIdeal.RefVal.ref_minB x0 x1]
  rfl

theorem frame_k : Cert.frame_Kernel := fun m ρ _ => Cert.Kernel.Fr.frame m ρ
theorem frame_ki : Cert.frame_KernelIdeal := fun m ρ _ => Cert.KernelIdeal.Fr.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealized kernel's result and the reference's, from memories that agree on the two clouds, are one function of the
    same two arrays of minima. -/
theorem algebraic : Cert.algebraic_KernelIdeal_ReferenceIdeal := by
  intro m ρ m' ρ' _ hagree
  refine ⟨fun c => Cert.KernelIdeal.Val.tail (Cert.KernelIdeal.Val.minsA m c) (Cert.KernelIdeal.Val.minsB m c), Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, ref_result, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
